-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S16384 : Shape := ⟨1, ![16384]⟩
abbrev S512x512 : Shape := ⟨2, ![512, 512]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg2 : IVec S16384 32) (main_arg3 : IVec S16384 32) (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  let main_c_6 : IVec S_ 32 := constantI S_ 32 100000#32
  let main_v18 : IVec S16384 32 := broadcastInDim S16384 ![] bcast_S_S16384 main_c_6
  let main_v19 : IVec S16384 1 := cmpi .slt main_arg2 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v17 main_v20
  let main_c_8 : IVec S_ 32 := constantI S_ 32 0#32
  let main_v22 : IVec S16384 32 := broadcastInDim S16384 ![] bcast_S_S16384 main_c_8
  let main_v23 : IVec S16384 1 := cmpi .sge main_arg3 main_v22
  let main_c_9 : IVec S_ 1 := constantI S_ 1 1#1
  let main_v24 : IVec S_ 1 := (fun x v => Host.reduce IntOp.andi x v reducesTo_S16384_S_d0 h_S_) main_v23 main_c_9
  let main_v25 : IVec S_ 1 := andi main_v21 main_v24
  let main_c_10 : IVec S_ 32 := constantI S_ 32 100000#32
  let main_v26 : IVec S16384 32 := broadcastInDim S16384 ![] bcast_S_S16384 main_c_10
  let main_v27 : IVec S16384 1 := cmpi .slt main_arg3 main_v26
  let main_c_11 : IVec S_ 1 := constantI S_ 1 1#1
  let main_v28 : IVec S_ 1 := (fun x v => Host.reduce IntOp.andi x v reducesTo_S16384_S_d0 h_S_) main_v27 main_c_11
  let main_v29 : IVec S_ 1 := andi main_v25 main_v28
  main_v29

def fn {F : FTy → Type} [FloatOps F] (main_arg0 : FVec F S100000x128 .f32) (main_arg1 : IVec S2x1600000 32) (main_arg2 : IVec S16384 32) (main_arg3 : IVec S16384 32) (main_arg4 : FVec F S512x512 .f32) (main_arg5 : FVec F S512 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x512 .f32 := Host.absf main_arg4
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg2 main_v14
  let main_c_5 : IVec S_ 1 := constantI S_ 1 1#1
  fn_part1 (F := F) main_arg2 main_arg3 main_v13 main_v15 main_c_5
-- ==== Kernel.lean ====
abbrev S100000x128 : Shape := ⟨2, ![100000, 128]⟩
abbrev S2x1600000 : Shape := ⟨2, ![2, 1600000]⟩
abbrev S16384 : Shape := ⟨1, ![16384]⟩
abbrev S512x512 : Shape := ⟨2, ![512, 512]⟩
abbrev S512 : Shape := ⟨1, ![512]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S32768 : Shape := ⟨1, ![32768]⟩
abbrev S32768x1 : Shape := ⟨2, ![32768, 1]⟩
abbrev S1 : Shape := ⟨1, ![1]⟩
abbrev S1x1 : Shape := ⟨2, ![1, 1]⟩
abbrev S32768x128 : Shape := ⟨2, ![32768, 128]⟩
abbrev S32768x512 : Shape := ⟨2, ![32768, 512]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩
abbrev S16384x512 : Shape := ⟨2, ![16384, 512]⟩

abbrev nBuf : Space → Nat
  | .hbm => 193
  | .vmem => 12
  | .smem => 0
  | _ => 0

abbrev hbmTy0_0 (i : Nat) : BufTy := match i % 128 with
  | 0 => ⟨S100000x128, .f32⟩
  | 1 => ⟨S2x1600000, .i32⟩
  | 2 => ⟨S16384, .i32⟩
  | 3 => ⟨S16384, .i32⟩
  | 4 => ⟨S512x512, .f32⟩
  | 5 => ⟨S512, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S1600000x1, .f32⟩
  | 49 => ⟨S1600000x128, .f32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x1, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S32768, .i32⟩
  | 88 => ⟨S_, .i32⟩
  | 89 => ⟨S_, .i32⟩
  | 90 => ⟨S_, .i32⟩
  | 91 => ⟨S32768, .i32⟩
  | 92 => ⟨S32768, .i32⟩
  | 93 => ⟨S_, .i32⟩
  | 94 => ⟨S32768, .i32⟩
  | 95 => ⟨S32768, .i32⟩
  | 96 => ⟨S_, .i32⟩
  | 97 => ⟨S32768, .i32⟩
  | 98 => ⟨S32768, .i1⟩
  | 99 => ⟨S_, .i32⟩
  | 100 => ⟨S32768, .i32⟩
  | 101 => ⟨S32768, .i32⟩
  | 102 => ⟨S32768, .i32⟩
  | 103 => ⟨S32768x1, .i32⟩
  | 104 => ⟨S1, .i32⟩
  | 105 => ⟨S_, .i32⟩
  | 106 => ⟨S32768x1, .i32⟩
  | 107 => ⟨S32768x1, .i1⟩
  | 108 => ⟨S1x1, .i32⟩
  | 109 => ⟨S32768x1, .i32⟩
  | 110 => ⟨S32768x1, .i1⟩
  | 111 => ⟨S32768x1, .i1⟩
  | 112 => ⟨S_, .i1⟩
  | 113 => ⟨S32768, .i1⟩
  | 114 => ⟨S32768x128, .f32⟩
  | 115 => ⟨S32768x128, .i1⟩
  | 116 => ⟨S_, .f32⟩
  | 117 => ⟨S32768x128, .f32⟩
  | 118 => ⟨S32768x128, .f32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S1, .i32⟩
  | _ => ⟨S100000x128, .f32⟩

abbrev hbmTy0_1 (i : Nat) : BufTy := match i % 128 with
  | 0 => ⟨S_, .i32⟩
  | 1 => ⟨S32768x1, .i32⟩
  | 2 => ⟨S32768x1, .i1⟩
  | 3 => ⟨S1x1, .i32⟩
  | 4 => ⟨S32768x1, .i32⟩
  | 5 => ⟨S32768x1, .i1⟩
  | 6 => ⟨S32768x1, .i1⟩
  | 7 => ⟨S_, .i1⟩
  | 8 => ⟨S32768, .i1⟩
  | 9 => ⟨S32768x128, .f32⟩
  | 10 => ⟨S32768x128, .i1⟩
  | 11 => ⟨S_, .f32⟩
  | 12 => ⟨S32768x128, .f32⟩
  | 13 => ⟨S32768x128, .f32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S1, .i32⟩
  | 23 => ⟨S_, .i32⟩
  | 24 => ⟨S32768x1, .i32⟩
  | 25 => ⟨S32768x1, .i1⟩
  | 26 => ⟨S1x1, .i32⟩
  | 27 => ⟨S32768x1, .i32⟩
  | 28 => ⟨S32768x1, .i1⟩
  | 29 => ⟨S32768x1, .i1⟩
  | 30 => ⟨S_, .i1⟩
  | 31 => ⟨S32768, .i1⟩
  | 32 => ⟨S32768x128, .f32⟩
  | 33 => ⟨S32768x128, .i1⟩
  | 34 => ⟨S_, .f32⟩
  | 35 => ⟨S32768x128, .f32⟩
  | 36 => ⟨S32768x128, .f32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S1, .i32⟩
  | 46 => ⟨S_, .i32⟩
  | 47 => ⟨S32768x1, .i32⟩
  | 48 => ⟨S32768x1, .i1⟩
  | 49 => ⟨S1x1, .i32⟩
  | 50 => ⟨S32768x1, .i32⟩
  | 51 => ⟨S32768x1, .i1⟩
  | 52 => ⟨S32768x1, .i1⟩
  | 53 => ⟨S_, .i1⟩
  | 54 => ⟨S32768, .i1⟩
  | 55 => ⟨S32768x128, .f32⟩
  | 56 => ⟨S32768x128, .i1⟩
  | 57 => ⟨S_, .f32⟩
  | 58 => ⟨S32768x128, .f32⟩
  | 59 => ⟨S32768x128, .f32⟩
  | 60 => ⟨S512x512, .f32⟩
  | 61 => ⟨S512x512, .bf16⟩
  | 62 => ⟨S32768x512, .f32⟩
  | 63 => ⟨S16384x512, .f32⟩
  | 64 => ⟨S16384x512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S512x512, .bf16⟩
  | .local _ .vmem, ⟨9, _⟩ => ⟨S512, .f32⟩
  | .local _ .vmem, ⟨10, _⟩ => ⟨S2048x512, .f32⟩
  | .local _ .vmem, ⟨11, _⟩ => ⟨S2048x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_c_15 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_v66 : Ref sig .tc := ⟨.hbm, 95, rfl⟩
abbrev main_call1_c : Ref sig .tc := ⟨.hbm, 96, rfl⟩
abbrev main_call1_v0 : Ref sig .tc := ⟨.hbm, 97, rfl⟩
abbrev main_call1_v1 : Ref sig .tc := ⟨.hbm, 98, rfl⟩
abbrev main_call1_c_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_c_1 : Ref sig .tc := ⟨.hbm, 104, rfl⟩
abbrev main_call1_c_2 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_c_3 : Ref sig .tc := ⟨.hbm, 112, rfl⟩
abbrev main_call1_v12 : Ref sig .tc := ⟨.hbm, 113, rfl⟩
abbrev main_call1_v13 : Ref sig .tc := ⟨.hbm, 114, rfl⟩
abbrev main_call1_v14 : Ref sig .tc := ⟨.hbm, 115, rfl⟩
abbrev main_call1_cst : Ref sig .tc := ⟨.hbm, 116, rfl⟩
abbrev main_call1_v15 : Ref sig .tc := ⟨.hbm, 117, rfl⟩
abbrev main_v67 : Ref sig .tc := ⟨.hbm, 118, rfl⟩
abbrev main_call2_c : Ref sig .tc := ⟨.hbm, 119, rfl⟩
abbrev main_call2_v0 : Ref sig .tc := ⟨.hbm, 120, rfl⟩
abbrev main_call2_v1 : Ref sig .tc := ⟨.hbm, 121, rfl⟩
abbrev main_call2_c_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_c_1 : Ref sig .tc := ⟨.hbm, 127, rfl⟩
abbrev main_call2_c_2 : Ref sig .tc := ⟨.hbm, 128, rfl⟩
abbrev main_call2_v6 : Ref sig .tc := ⟨.hbm, 129, rfl⟩
abbrev main_call2_v7 : Ref sig .tc := ⟨.hbm, 130, rfl⟩
abbrev main_call2_v8 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_c_3 : Ref sig .tc := ⟨.hbm, 135, rfl⟩
abbrev main_call2_v12 : Ref sig .tc := ⟨.hbm, 136, rfl⟩
abbrev main_call2_v13 : Ref sig .tc := ⟨.hbm, 137, rfl⟩
abbrev main_call2_v14 : Ref sig .tc := ⟨.hbm, 138, rfl⟩
abbrev main_call2_cst : Ref sig .tc := ⟨.hbm, 139, rfl⟩
abbrev main_call2_v15 : Ref sig .tc := ⟨.hbm, 140, rfl⟩
abbrev main_v68 : Ref sig .tc := ⟨.hbm, 141, rfl⟩
abbrev main_call3_c : Ref sig .tc := ⟨.hbm, 142, rfl⟩
abbrev main_call3_v0 : Ref sig .tc := ⟨.hbm, 143, rfl⟩
abbrev main_call3_v1 : Ref sig .tc := ⟨.hbm, 144, rfl⟩
abbrev main_call3_c_0 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_c_1 : Ref sig .tc := ⟨.hbm, 150, rfl⟩
abbrev main_call3_c_2 : Ref sig .tc := ⟨.hbm, 151, rfl⟩
abbrev main_call3_v6 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_c_3 : Ref sig .tc := ⟨.hbm, 158, rfl⟩
abbrev main_call3_v12 : Ref sig .tc := ⟨.hbm, 159, rfl⟩
abbrev main_call3_v13 : Ref sig .tc := ⟨.hbm, 160, rfl⟩
abbrev main_call3_v14 : Ref sig .tc := ⟨.hbm, 161, rfl⟩
abbrev main_call3_cst : Ref sig .tc := ⟨.hbm, 162, rfl⟩
abbrev main_call3_v15 : Ref sig .tc := ⟨.hbm, 163, rfl⟩
abbrev main_v69 : Ref sig .tc := ⟨.hbm, 164, rfl⟩
abbrev main_call4_c : Ref sig .tc := ⟨.hbm, 165, rfl⟩
abbrev main_call4_v0 : Ref sig .tc := ⟨.hbm, 166, rfl⟩
abbrev main_call4_v1 : Ref sig .tc := ⟨.hbm, 167, rfl⟩
abbrev main_call4_c_0 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_v5 : Ref sig .tc := ⟨.hbm, 172, rfl⟩
abbrev main_call4_c_1 : Ref sig .tc := ⟨.hbm, 173, rfl⟩
abbrev main_call4_c_2 : Ref sig .tc := ⟨.hbm, 174, rfl⟩
abbrev main_call4_v6 : Ref sig .tc := ⟨.hbm, 175, rfl⟩
abbrev main_call4_v7 : Ref sig .tc := ⟨.hbm, 176, rfl⟩
abbrev main_call4_v8 : Ref sig .tc := ⟨.hbm, 177, rfl⟩
abbrev main_call4_v9 : Ref sig .tc := ⟨.hbm, 178, rfl⟩
abbrev main_call4_v10 : Ref sig .tc := ⟨.hbm, 179, rfl⟩
abbrev main_call4_v11 : Ref sig .tc := ⟨.hbm, 180, rfl⟩
abbrev main_call4_c_3 : Ref sig .tc := ⟨.hbm, 181, rfl⟩
abbrev main_call4_v12 : Ref sig .tc := ⟨.hbm, 182, rfl⟩
abbrev main_call4_v13 : Ref sig .tc := ⟨.hbm, 183, rfl⟩
abbrev main_call4_v14 : Ref sig .tc := ⟨.hbm, 184, rfl⟩
abbrev main_call4_cst : Ref sig .tc := ⟨.hbm, 185, rfl⟩
abbrev main_call4_v15 : Ref sig .tc := ⟨.hbm, 186, rfl⟩
abbrev main_v70 : Ref sig .tc := ⟨.hbm, 187, rfl⟩
abbrev main_v71 : Ref sig .tc := ⟨.hbm, 188, rfl⟩
abbrev main_v72 : Ref sig .tc := ⟨.hbm, 189, rfl⟩
abbrev main_v73 : Ref sig .tc := ⟨.hbm, 190, rfl⟩
abbrev main_v74 : Ref sig .tc := ⟨.hbm, 191, rfl⟩
abbrev main_v75 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S16384_S16384_S32768_d0 : Shape.Concatenates [S16384, S16384] S32768 0
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x128_0 : S32768.BroadcastsInDim S32768x128 (![0] : Fin 1 → Fin S32768x128.rank)
  bcast_S_S32768x128 : S_.BroadcastsInDim S32768x128 (![] : Fin 0 → Fin S32768x128.rank)
  transposes_S512x512_S512x512_1_0 : S512x512.Transposes [1, 0] S512x512
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  concatenates_S2048x128_S2048x128_S2048x128_S2048x128_S2048x512_d1 : Shape.Concatenates [S2048x128, S2048x128, S2048x128, S2048x128] S2048x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  slices_S32768x512_S16384x512_0_0 : S32768x512.Slices ![0, 0] S16384x512
  slices_S32768x512_S16384x512_16384_0 : S32768x512.Slices ![16384, 0] S16384x512
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S32768x1_S32768x128_1_0_n_n_0_1_1128_wf : GatherDims.WF S100000x128 S32768x1 S32768x128 [1] [0] [] [0] [] 1 ![1, 128]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S32768x128.size a
  hwx0_3 : ∀ i : grid0.Coords, EltTy.bits .f32 = 32 ∨ (Rect.block (s := S32768x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S32768x512.size a
  hwx0_6 : ∀ i : grid0.Coords, EltTy.bits .f32 = 32 ∨ (Rect.block (s := S32768x512) S2048x512.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S32768x1_S32768x128_1_0_n_n_0_1_1128 : GatherDims S100000x128 S32768x1 S32768x128 where
  offsetDims := [1]
  collapsedSliceDims := [0]
  operandBatchingDims := []
  startIndicesBatchingDims := []
  startIndexMap := [0]
  indexVectorDim := 1
  sliceSizes := ![1, 128]
  wf := gather_S100000x128_S32768x1_S32768x128_1_0_n_n_0_1_1128_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v67) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v69) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v70) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v73) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S16384 : Shape := ⟨1, ![16384]⟩
abbrev S512x512 : Shape := ⟨2, ![512, 512]⟩
abbrev S512 : Shape := ⟨1, ![512]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x512 : Shape := ⟨2, ![100000, 512]⟩
abbrev S1x512 : Shape := ⟨2, ![1, 512]⟩
abbrev S16384x1 : Shape := ⟨2, ![16384, 1]⟩
abbrev S16384x512 : Shape := ⟨2, ![16384, 512]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S16384, .i32⟩
  | 3 => ⟨S16384, .i32⟩
  | 4 => ⟨S512x512, .f32⟩
  | 5 => ⟨S512, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S100000x128, .f32⟩
  | 40 => ⟨S_, .f32⟩
  | 41 => ⟨S100000, .f32⟩
  | 42 => ⟨S100000x1, .f32⟩
  | 43 => ⟨S100000x1, .f32⟩
  | 44 => ⟨S_, .f32⟩
  | 45 => ⟨S100000x1, .f32⟩
  | 46 => ⟨S100000x1, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x128, .f32⟩
  | 66 => ⟨S_, .f32⟩
  | 67 => ⟨S100000, .f32⟩
  | 68 => ⟨S100000x1, .f32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S1600000x1, .f32⟩
  | 85 => ⟨S1600000x128, .f32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S100000x128, .f32⟩
  | 92 => ⟨S_, .f32⟩
  | 93 => ⟨S100000, .f32⟩
  | 94 => ⟨S100000x1, .f32⟩
  | 95 => ⟨S100000x1, .f32⟩
  | 96 => ⟨S_, .f32⟩
  | 97 => ⟨S100000x1, .f32⟩
  | 98 => ⟨S100000x1, .f32⟩
  | 99 => ⟨S100000x128, .f32⟩
  | 100 => ⟨S100000x128, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S1600000x1, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000x128, .f32⟩
  | 118 => ⟨S_, .f32⟩
  | 119 => ⟨S100000, .f32⟩
  | 120 => ⟨S100000x1, .f32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S100000x512, .f32⟩
  | _ => ⟨S100000x128, .f32⟩

abbrev hbmTy0_1 (i : Nat) : BufTy := match i % 128 with
  | 0 => ⟨S512x512, .f32⟩
  | 1 => ⟨S100000x512, .f32⟩
  | 2 => ⟨S1x512, .f32⟩
  | 3 => ⟨S100000x512, .f32⟩
  | 4 => ⟨S100000x512, .f32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S16384x512, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384x512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_call1_v2 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call3_v0 : Ref sig .tc := ⟨.hbm, 117, rfl⟩
abbrev main_call3_cst : Ref sig .tc := ⟨.hbm, 118, rfl⟩
abbrev main_call3_v1 : Ref sig .tc := ⟨.hbm, 119, rfl⟩
abbrev main_call3_v2 : Ref sig .tc := ⟨.hbm, 120, rfl⟩
abbrev main_v80 : Ref sig .tc := ⟨.hbm, 121, rfl⟩
abbrev main_cst_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_18 : Ref sig .tc := ⟨.hbm, 133, rfl⟩
abbrev main_v91 : Ref sig .tc := ⟨.hbm, 134, rfl⟩
abbrev main_v92 : Ref sig .tc := ⟨.hbm, 135, rfl⟩
abbrev main_c_19 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_20 : Ref sig .tc := ⟨.hbm, 142, rfl⟩
abbrev main_v98 : Ref sig .tc := ⟨.hbm, 143, rfl⟩
abbrev main_v99 : Ref sig .tc := ⟨.hbm, 144, rfl⟩
abbrev main_c_21 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  transposes_S512x512_S512x512_1_0 : S512x512.Transposes [1, 0] S512x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S16384 : S_.BroadcastsInDim S16384 (![] : Fin 0 → Fin S16384.rank)
  bcast_S16384_S16384x1_0 : S16384.BroadcastsInDim S16384x1 (![0] : Fin 1 → Fin S16384x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x512_S512x512_S100000x512_1_0_0_1_n_n_wf : DotDims.WF S100000x512 S512x512 S100000x512 [1] [0] [0] [1] [] []
  gather_S100000x512_S16384x1_S16384x512_1_0_n_n_0_1_1512_wf : GatherDims.WF S100000x512 S16384x1 S16384x512 [1] [0] [] [0] [] 1 ![1, 512]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def gather_S100000x512_S16384x1_S16384x512_1_0_n_n_0_1_1512 : GatherDims S100000x512 S16384x1 S16384x512 where
  offsetDims := [1]
  collapsedSliceDims := [0]
  operandBatchingDims := []
  startIndicesBatchingDims := []
  startIndexMap := [0]
  indexVectorDim := 1
  sliceSizes := ![1, 512]
  wf := gather_S100000x512_S16384x1_S16384x512_1_0_n_n_0_1_1512_wf

class Facts : Prop extends Facts₀ where

variable [Facts]
-- ==== Proof.RowSpec.lean ====
/-
  Four node tables of 128 columns each give, for one node, four rows. Each row is divided by its Euclidean length
  (bounded below by a small positive guard), the four unit rows are laid end to end into 512 features, and the
  features go through an affine layer: feature k times the weight at (k, n), summed over k, plus the bias at n.
  This file states that value for one node from its four rows; nothing here depends on a program.
-/
import Idealize.ShloMosaic.PureOps.Ideal
import Idealize.ShloMosaic.Lib.ValueIdx

noncomputable section

open Idealize.ShloMosaic Idealize.ShloMosaic.ValueIdx

namespace Cert.RowSpec

/-- The guard under a row's length: the binary32 number nearest to 1e-12. -/
def guard : EReal := Ideal.ofBits .f32 0x2B8CBCCC#32

/-- The length a row is divided by: the square root of the sum of its squares, or the guard if that is larger. -/
def len (ρ : Fin 128 → EReal) : EReal := max (Ideal.sqrt (∑ i : Fin 128, ρ i * ρ i)) guard

/-- Entry j of a row divided by its length. -/
def unitAt (ρ : Fin 128 → EReal) (j : Fin 128) : EReal := Ideal.div (ρ j) (len ρ)

/-- Feature k of a node with rows ρ 0 … ρ 3: entry k mod 128 of the unit row number k div 128. -/
def feat (ρ : Fin 4 → Fin 128 → EReal) (k : Fin 512) : EReal :=
  unitAt (ρ ⟨k.val / 128, by have := k.isLt; omega⟩) ⟨k.val % 128, Nat.mod_lt _ (by decide)⟩

/-- The affine layer's output n for that node: the features against column n of the weights (given with the
    feature axis first), plus the bias. -/
def outAt (ρ : Fin 4 → Fin 128 → EReal) (Wt : (⟨2, ![512, 512]⟩ : Shape).Idx → EReal)
    (b : (⟨1, ![512]⟩ : Shape).Idx → EReal) (n : Fin 512) : EReal :=
  (∑ k : Fin 512, feat ρ k * Wt (ix2 k n)) + b (ix1 n)

end Cert.RowSpec

end
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.KernelBody.lean ====
/-
  The body of the fused kernel on one block of 2048 gathered rows: each of the four 2048×128 blocks has its rows
  divided by their lengths, the four are laid side by side, multiplied by the 512×512 weights and the bias is added.
  Read at row q and output n of the block, that is the affine layer of the node whose four rows are the blocks'
  rows q.
-/
import proofs.«426924_j9938554323124_3_alg».proof.Proof.Gen.KernelIdeal.Frame
import proofs.«426924_j9938554323124_3_alg».proof.Proof.RowSpec
import Idealize.ShloMosaic.Lib.Pipeline.Value
import Idealize.ShloMosaic.Lib.ValueIdx
import proofs.«426924_j9938554323124_3_alg».proof.Proof.LibPlainRows
import Idealize.ShloMosaic.PureOps.Ideal.Laws

noncomputable section

namespace Cert.KernelBody

open Idealize.ShloMosaic Idealize.ShloMosaic.ValueIdx Cert.KernelIdeal Cert.KernelIdeal.Gen

/-- A block of 2048 rows, every row divided by its length: the body's operations on one input block. -/
def unitBlock (v : Vec Ideal S2048x128 .f32) : FVec Ideal S2048x128 .f32 :=
  divf (shapeCast S2048x128 v shapeCasts_S2048x128_S2048x128)
    (broadcastTo S2048x128
      (maximumf
        (sqrt (shapeCast S2048x1
          (multiReduction .add [1] S2048
            (mulf (shapeCast S2048x128 v shapeCasts_S2048x128_S2048x128) (shapeCast S2048x128 v shapeCasts_S2048x128_S2048x128))
            0x00000000#32 reduces_S2048x128_S2048 (.inl rfl) rfl)
          shapeCasts_S2048_S2048x1))
        (broadcast S2048x1 (Scalar.ofBits (F := Ideal) .f32 0x2B8CBCCC#32)))
      broadcasts_S2048x1_S2048x128)

/-- The sum of a row's squares, as the lane reduction gives it. -/
theorem rowSquares_apply (w : FVec Ideal S2048x128 .f32) (hacc : (0x00000000#32 : BitVec 32) = 0x00000000#32) (q : Fin 2048) :
    multiReduction .add [1] S2048 w 0x00000000#32 reduces_S2048x128_S2048 (.inl rfl) hacc (ix1 q)
      = ∑ i : Fin 128, w (ix2 q i) := by
  refine (Ideal.multiReduction_add_single w 0x00000000#32 reduces_S2048x128_S2048 (.inl rfl) hacc (ix1 q)).trans ?_
  refine Finset.sum_congr rfl fun i _ => congrArg w ?_
  funext a
  refine Fin.ext ?_
  match a with
  | ⟨0, _⟩ => rfl
  | ⟨1, _⟩ => rfl

/-- Row q of the block divided by its length, entry j. -/
theorem unitBlock_apply (v : Vec Ideal S2048x128 .f32) (q : Fin 2048) (j : Fin 128) :
    unitBlock v (ix2 q j) = Cert.RowSpec.unitAt (fun i => v (ix2 q i)) j := by
  unfold unitBlock
  rw [shapeCast_self]
  show Ideal.div (v (ix2 q j)) (broadcastTo S2048x128 _ broadcasts_S2048x1_S2048x128 (ix2 q j)) = _
  rw [broadcastTo_apply _ broadcasts_S2048x1_S2048x128 (ix2 q j) (ix2 q (0 : Fin 1)) (by
    intro a
    match a with
    | ⟨0, _⟩ => show q.val = if (2048 : Nat) = 1 then 0 else q.val; rw [if_neg (by decide)]
    | ⟨1, _⟩ => rfl)]
  show Ideal.div (v (ix2 q j)) (max (Ideal.sqrt (shapeCast S2048x1 _ shapeCasts_S2048_S2048x1 (ix2 q (0 : Fin 1)))) (Ideal.ofBits .f32 0x2B8CBCCC#32)) = _
  rw [shapeCast_apply _ shapeCasts_S2048_S2048x1 (ix2 q (0 : Fin 1)) (ix1 q) (by
    rw [Shape.rowMajor_val_two, Shape.rowMajor_val_one]; show q.val = q.val * 1 + 0; omega)]
  rw [rowSquares_apply]
  rfl

/-- The four input blocks of a grid point as a family. -/
def blocks4 (v0 v1 v2 v3 : Vec Ideal S2048x128 .f32) : Fin 4 → Vec Ideal S2048x128 .f32
  | 0 => v0
  | 1 => v1
  | 2 => v2
  | 3 => v3

/-- The features of the block: the four unit blocks side by side (the change of format is the identity). -/
theorem features_eq (v0 v1 v2 v3 : Vec Ideal S2048x128 .f32) :
    k0_pay2 (F := Ideal) v0 v1 v2 v3
      = concatenate S2048x512 1
          (List.ofFn fun l : Fin 4 => (⟨S2048x128, unitBlock (blocks4 v0 v1 v2 v3 l)⟩ : (s : Shape) × (s.Idx → EReal)))
          concatenates_S2048x128_S2048x128_S2048x128_S2048x128_S2048x512_d1 := rfl

/-- Feature k of row q: entry k mod 128 of the unit row of block k div 128. -/
theorem features_apply (v0 v1 v2 v3 : Vec Ideal S2048x128 .f32) (q : Fin 2048) (k : Fin 512) :
    k0_pay2 (F := Ideal) v0 v1 v2 v3 (ix2 q k)
      = Cert.RowSpec.feat (fun l j => blocks4 v0 v1 v2 v3 l (ix2 q j)) k := by
  rw [features_eq]
  refine (concatenate_ofFn_apply (t := S2048x512) (s₁ := S2048x128) (1 : Fin 2) (fun l : Fin 4 => unitBlock (blocks4 v0 v1 v2 v3 l)) _ rfl 128 rfl (ix2 q k)
    ⟨k.val / 128, by have := k.isLt; omega⟩ rfl (ix2 q ⟨k.val % 128, Nat.mod_lt _ (by decide)⟩) rfl (by
      intro b hb
      match b with
      | ⟨0, _⟩ => rfl
      | ⟨1, _⟩ => exact absurd rfl hb)).trans ?_
  exact unitBlock_apply _ q _

/-- The record of the body's product is the plain one: rows by the contracted axis times the contracted axis by columns. -/
theorem dot_plain : dot_S2048x512_S512x512_S2048x512_1_0_0_1_n_n = DotDims.plain 2048 512 512 := rfl

/-- The affine layer on the block, at row q and output n. -/
theorem layer_apply (z : FVec Ideal S2048x512 .bf16) (w : Vec Ideal S512x512 .bf16) (bb : Vec Ideal S512 .f32)
    (q : Fin 2048) (n : Fin 512) :
    k0_pay1 (F := Ideal) z w bb (ix2 q n) = (∑ k : Fin 512, z (ix2 q k) * w (ix2 k n)) + bb (ix1 n) := by
  unfold k0_pay1
  rw [shapeCast_self]
  show matmul dot_S2048x512_S512x512_S2048x512_1_0_0_1_n_n none z w (constant S2048x512 .f32 0x00000000#32) (ix2 q n)
      + broadcastTo S2048x512 (shapeCast S1x512 bb shapeCasts_S512_S1x512) broadcasts_S1x512_S2048x512 (ix2 q n) = _
  rw [PlainRows.matmul_zero_rows_apply _ dot_plain none z w q n,
    PlainRows.rowCast_broadcast_apply bb shapeCasts_S512_S1x512 broadcasts_S1x512_S2048x512 q n]

theorem hz2 : (![0, 0] : Fin 2 → Nat) = fun _ => 0 := funext fun a => by fin_cases a <;> rfl
theorem hz1 : (![0] : Fin 1 → Nat) = fun _ => 0 := funext fun a => by fin_cases a; rfl

/-- What the body leaves in the output block, at row q and output n: the affine layer of the node whose rows are
    the input blocks' rows q. -/
theorem out_apply (x0 x1 x2 x3 : Vec Ideal S2048x128 .f32) (x4 : Vec Ideal S512x512 .bf16) (x5 : Vec Ideal S512 .f32)
    (q : Fin 2048) (n : Fin 512) :
    out0_6 (F := Ideal) x0 x1 x2 x3 x4 x5 (ix2 q n)
      = Cert.RowSpec.outAt (fun l j => blocks4 x0 x1 x2 x3 l (ix2 q j)) x4 x5 n := by
  unfold out0_6
  rw [View.canon_unit_zero hz2]
  simp only [View.ld_unit_zero (S := S2048x128) hz2, View.ld_unit_zero (S := S512x512) hz2, View.ld_unit_zero (S := S512) hz1]
  refine (layer_apply _ x4 x5 q n).trans ?_
  unfold Cert.RowSpec.outAt
  refine congrArg (· + x5 (ix1 n)) (Finset.sum_congr rfl fun k _ => ?_)
  rw [features_apply]

end Cert.KernelBody

end
-- ==== Proof.KernelArray.lean ====
/-
  From blocks to the array, for the fused kernel's output. Grid point t works on rows 2048 t … 2048 t + 2047 of the
  four gathered tables and writes rows 2048 t … 2048 t + 2047 of the output; the sixteen blocks tile the 32768 rows, so
  after the run the output array holds, at row p and column n, the affine layer of the node whose four rows are the
  gathered tables' rows p.
-/
import proofs.«426924_j9938554323124_3_alg».proof.Proof.KernelBody
import Idealize.ShloMosaic.Lib.Pipeline.Value

set_option maxRecDepth 16384

noncomputable section

namespace Cert.KernelArray

open Idealize.ShloMosaic Idealize.ShloMosaic.ValueIdx Idealize.SL.Sem Cert.KernelIdeal Cert.KernelIdeal.Gen Cert.KernelBody
open Idealize.ShloMosaic.Pipeline (Dat)

variable (m : (ℓ : Loc nD τ sig) → Buf (Elt Ideal) ℓ) (ρ : Dev nD → PrngReg)

/-- The index maps over the grid: block t of a row window starts at row 2048 t and column 0; the weights and the
    bias are one whole block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 ∧ t.val < 16 :=
  (by decide +kernel : ∀ t : Fin grid0.N, _)

/-- The four gathered tables as a family. -/
def rows4 (a0 a1 a2 a3 : S32768x128.Idx → EReal) : Fin 4 → S32768x128.Idx → EReal
  | 0 => a0
  | 1 => a1
  | 2 => a2
  | 3 => a3

/-- The output array of the kernel: row p holds the affine layer of the node whose four rows are the gathered
    tables' rows p, over the weights and the bias as the launch finds them. -/
def arrayG (c : Dev nD) : S32768x512.Idx → EReal := fun i =>
  Cert.RowSpec.outAt
    (fun l j => rows4 (V m c main_v67) (V m c main_v68) (V m c main_v69) (V m c main_v70) l (ix2 (i 0) j))
    (V m c main_v72) (V m c main_arg5) (i 1)

/-- Row q of block t of window 0 is row 2048 t + q of its array. -/
theorem blk0_apply (c : Dev nD) (t : Fin cfg0.N) (q : Fin 2048) (j : Fin 128) (hq : t.val * 2048 + q.val < 32768) :
    iblk m c 0 t (ix2 q j) = V m c main_v67 (ix2 (⟨t.val * 2048 + q.val, hq⟩ : Fin 32768) j) := by
  obtain ⟨e00, e01, e10, e11, e20, e21, e30, e31, e40, e41, e50, e60, e61, ht⟩ := idx_facts t
  show V m c main_v67 (((cfg0.win 0).blk t).view.emb (ix2 q j)) = _
  refine congrArg (V m c main_v67) (funext fun a => Fin.ext ?_)
  match a with
  | ⟨0, _⟩ => show win0_0.index t (0 : Fin 2) * 2048 + 1 * q.val = t.val * 2048 + q.val; omega
  | ⟨1, _⟩ => show win0_0.index t (1 : Fin 2) * 128 + 1 * j.val = j.val; omega

/-- Row q of block t of window 1 is row 2048 t + q of its array. -/
theorem blk1_apply (c : Dev nD) (t : Fin cfg0.N) (q : Fin 2048) (j : Fin 128) (hq : t.val * 2048 + q.val < 32768) :
    iblk m c 1 t (ix2 q j) = V m c main_v68 (ix2 (⟨t.val * 2048 + q.val, hq⟩ : Fin 32768) j) := by
  obtain ⟨e00, e01, e10, e11, e20, e21, e30, e31, e40, e41, e50, e60, e61, ht⟩ := idx_facts t
  show V m c main_v68 (((cfg0.win 1).blk t).view.emb (ix2 q j)) = _
  refine congrArg (V m c main_v68) (funext fun a => Fin.ext ?_)
  match a with
  | ⟨0, _⟩ => show win0_1.index t (0 : Fin 2) * 2048 + 1 * q.val = t.val * 2048 + q.val; omega
  | ⟨1, _⟩ => show win0_1.index t (1 : Fin 2) * 128 + 1 * j.val = j.val; omega

/-- Row q of block t of window 2 is row 2048 t + q of its array. -/
theorem blk2_apply (c : Dev nD) (t : Fin cfg0.N) (q : Fin 2048) (j : Fin 128) (hq : t.val * 2048 + q.val < 32768) :
    iblk m c 2 t (ix2 q j) = V m c main_v69 (ix2 (⟨t.val * 2048 + q.val, hq⟩ : Fin 32768) j) := by
  obtain ⟨e00, e01, e10, e11, e20, e21, e30, e31, e40, e41, e50, e60, e61, ht⟩ := idx_facts t
  show V m c main_v69 (((cfg0.win 2).blk t).view.emb (ix2 q j)) = _
  refine congrArg (V m c main_v69) (funext fun a => Fin.ext ?_)
  match a with
  | ⟨0, _⟩ => show win0_2.index t (0 : Fin 2) * 2048 + 1 * q.val = t.val * 2048 + q.val; omega
  | ⟨1, _⟩ => show win0_2.index t (1 : Fin 2) * 128 + 1 * j.val = j.val; omega

/-- Row q of block t of window 3 is row 2048 t + q of its array. -/
theorem blk3_apply (c : Dev nD) (t : Fin cfg0.N) (q : Fin 2048) (j : Fin 128) (hq : t.val * 2048 + q.val < 32768) :
    iblk m c 3 t (ix2 q j) = V m c main_v70 (ix2 (⟨t.val * 2048 + q.val, hq⟩ : Fin 32768) j) := by
  obtain ⟨e00, e01, e10, e11, e20, e21, e30, e31, e40, e41, e50, e60, e61, ht⟩ := idx_facts t
  show V m c main_v70 (((cfg0.win 3).blk t).view.emb (ix2 q j)) = _
  refine congrArg (V m c main_v70) (funext fun a => Fin.ext ?_)
  match a with
  | ⟨0, _⟩ => show win0_3.index t (0 : Fin 2) * 2048 + 1 * q.val = t.val * 2048 + q.val; omega
  | ⟨1, _⟩ => show win0_3.index t (1 : Fin 2) * 128 + 1 * j.val = j.val; omega

/-- The weights' one block is the whole array. -/
theorem blk4_apply (c : Dev nD) (t : Fin cfg0.N) (k n : Fin 512) :
    iblk m c 4 t (ix2 k n) = V m c main_v72 (ix2 k n) := by
  obtain ⟨e00, e01, e10, e11, e20, e21, e30, e31, e40, e41, e50, e60, e61, ht⟩ := idx_facts t
  show V m c main_v72 (((cfg0.win 4).blk t).view.emb (ix2 k n)) = _
  refine congrArg (V m c main_v72) (funext fun a => Fin.ext ?_)
  match a with
  | ⟨0, _⟩ => show win0_4.index t (0 : Fin 2) * 512 + 1 * k.val = k.val; omega
  | ⟨1, _⟩ => show win0_4.index t (1 : Fin 2) * 512 + 1 * n.val = n.val; omega

/-- The bias's one block is the whole vector. -/
theorem blk5_apply (c : Dev nD) (t : Fin cfg0.N) (n : Fin 512) :
    iblk m c 5 t (ix1 n) = V m c main_arg5 (ix1 n) := by
  obtain ⟨e00, e01, e10, e11, e20, e21, e30, e31, e40, e41, e50, e60, e61, ht⟩ := idx_facts t
  show V m c main_arg5 (((cfg0.win 5).blk t).view.emb (ix1 n)) = _
  refine congrArg (V m c main_arg5) (funext fun a => Fin.ext ?_)
  match a with
  | ⟨0, _⟩ => show win0_5.index t (0 : Fin 1) * 512 + 1 * n.val = n.val; omega

/-- Index (q, n) of the output's block t is index (2048 t + q, n) of its array. -/
theorem blk6_emb (t : Fin cfg0.N) (q : Fin 2048) (n : Fin 512) (hq : t.val * 2048 + q.val < 32768) :
    ((cfg0.win 6).blk t).view.emb (ix2 q n) = ix2 (⟨t.val * 2048 + q.val, hq⟩ : Fin 32768) n := by
  obtain ⟨e00, e01, e10, e11, e20, e21, e30, e31, e40, e41, e50, e60, e61, ht⟩ := idx_facts t
  funext a; apply Fin.ext
  match a with
  | ⟨0, _⟩ => show win0_6.index t (0 : Fin 2) * 2048 + 1 * q.val = t.val * 2048 + q.val; omega
  | ⟨1, _⟩ => show win0_6.index t (1 : Fin 2) * 512 + 1 * n.val = n.val; omega

/-- What grid point t writes back is block t of that array. -/
theorem flushed_eq (c : Dev nD) (t : Fin cfg0.N) :
    (dats m 0 c).flushed 6 t = ((cfg0.win 6).blk t).view.read (Elt Ideal) (arrayG m c) := by
  show (cfg0.win 6).cut (grid0.coords t) ((dats m 0 c).after 6 t) = _
  rw [after0_6]
  have ht : t.val < 16 := (idx_facts t).2.2.2.2.2.2.2.2.2.2.2.2.2
  funext y
  obtain ⟨q, n, rfl⟩ : ∃ (q : Fin 2048) (n : Fin 512), y = ix2 q n := ⟨y 0, y 1, eq_ix2 y⟩
  have hq : t.val * 2048 + q.val < 32768 := by have := q.isLt; omega
  refine (out_apply (iblk m c 0 t) (iblk m c 1 t) (iblk m c 2 t) (iblk m c 3 t) (iblk m c 4 t) (iblk m c 5 t) q n).trans ?_
  show _ = arrayG m c (((cfg0.win 6).blk t).view.emb (ix2 q n))
  rw [blk6_emb t q n hq]
  show _ = Cert.RowSpec.outAt
    (fun l j => rows4 (V m c main_v67) (V m c main_v68) (V m c main_v69) (V m c main_v70) l
      (ix2 (⟨t.val * 2048 + q.val, hq⟩ : Fin 32768) j))
    (V m c main_v72) (V m c main_arg5) n
  have hρ : (fun (l : Fin 4) (j : Fin 128) => blocks4 (iblk m c 0 t) (iblk m c 1 t) (iblk m c 2 t) (iblk m c 3 t) l (ix2 q j))
      = fun l j => rows4 (V m c main_v67) (V m c main_v68) (V m c main_v69) (V m c main_v70) l
          (ix2 (⟨t.val * 2048 + q.val, hq⟩ : Fin 32768) j) := by
    funext l j
    match l with
    | 0 => exact blk0_apply m c t q j hq
    | 1 => exact blk1_apply m c t q j hq
    | 2 => exact blk2_apply m c t q j hq
    | 3 => exact blk3_apply m c t q j hq
  unfold Cert.RowSpec.outAt
  rw [hρ, blk5_apply m c t n]
  refine congrArg (fun s : EReal => s + V m c main_arg5 (ix1 n)) ?_
  refine Finset.sum_congr rfl fun k _ => ?_
  rw [blk4_apply m c t k n]

/-- An index of the output array lies in block t exactly when each coordinate lies in the block's range on its axis. -/
theorem mem_blk (t : Fin cfg0.N) (i : S32768x512.Idx) :
    i ∈ ((cfg0.win 6).blk t).view.set ↔ ∀ a : Fin 2, win0_6.index t a * S2048x512.size a ≤ (i a).val ∧ (i a).val < win0_6.index t a * S2048x512.size a + S2048x512.size a := by
  show i ∈ ((View.whole main_v73).slice (win0_6.rect t)).set ↔ _
  rw [View.set_slice_whole, Rect.mem_set_unit]
  exact Iff.rfl

/-- The sixteen blocks of 2048 rows tile the 32768 rows: row r lies in block r div 2048. -/
theorem cover (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  have hN : (i 0).val / 2048 < cfg0.N := by show _ < grid0.N; rw [N_0]; omega
  obtain ⟨e00, e01, e10, e11, e20, e21, e30, e31, e40, e41, e50, e60, e61, ht⟩ := idx_facts ⟨(i 0).val / 2048, hN⟩
  refine ⟨⟨(i 0).val / 2048, hN⟩, flush0_6 _, ?_⟩
  rw [mem_blk]
  intro a
  match a with
  | ⟨0, _⟩ =>
    show win0_6.index ⟨(i 0).val / 2048, hN⟩ (0 : Fin 2) * 2048 ≤ (i 0).val ∧ (i 0).val < win0_6.index ⟨(i 0).val / 2048, hN⟩ (0 : Fin 2) * 2048 + 2048
    rw [e60]
    show (i 0).val / 2048 * 2048 ≤ (i 0).val ∧ (i 0).val < (i 0).val / 2048 * 2048 + 2048
    omega
  | ⟨1, _⟩ =>
    show win0_6.index ⟨(i 0).val / 2048, hN⟩ (1 : Fin 2) * 512 ≤ (i 1).val ∧ (i 1).val < win0_6.index ⟨(i 0).val / 2048, hN⟩ (1 : Fin 2) * 512 + 512
    rw [e61]
    omega

/-- The output array after the run. -/
theorem final (c : Dev nD) : (dats m 0 c).arrAt 6 cfg0.N = arrayG m c :=
  (dats m 0 c).arrAt_eq_of_cover 6 (arrayG m c) (fun t _ => flushed_eq m c t) cover

end Cert.KernelArray

end
-- ==== Proof.KernelTail.lean ====
/-
  The two slices after the region and the kernel program's run. The first result is rows 0 … 16383 of the output
  array and the second rows 16384 … 32767; the arguments are as launched.
-/
import proofs.«426924_j9938554323124_3_alg».proof.Proof.KernelArray
import Idealize.ShloMosaic.Lib.StableHlo.Run

set_option maxRecDepth 16384

noncomputable section

namespace Cert.KernelArray

open Idealize.ShloMosaic Idealize.ShloMosaic.ValueIdx Idealize.SL.Sem Cert.KernelIdeal Cert.KernelIdeal.Gen Cert.KernelBody
open Idealize.ShloMosaic.Pipeline (Dat)
open Idealize.ShloMosaic.StableHlo

variable (m : (ℓ : Loc nD τ sig) → Buf (Elt Ideal) ℓ) (ρ : Dev nD → PrngReg)

/-- The first result: rows 0 … 16383 of the output array. -/
def res0 (c : Dev nD) : S16384x512.Idx → EReal := fun i =>
  arrayG m c (ix2 (⟨(i 0).val, by have h : (i 0).val < 16384 := (i 0).isLt; omega⟩ : Fin 32768) (i 1))

/-- The second result: rows 16384 … 32767 of the output array. -/
def res1 (c : Dev nD) : S16384x512.Idx → EReal := fun i =>
  arrayG m c (ix2 (⟨16384 + (i 0).val, by have h : (i 0).val < 16384 := (i 0).isLt; omega⟩ : Fin 32768) (i 1))

/-- The first slice at an index. -/
theorem slice0_apply (G : S32768x512.Idx → EReal) (p : Fin 16384) (n : Fin 512) (hp : p.val < 32768) :
    extractStridedSlice S16384x512 ![0, 0] G slices_S32768x512_S16384x512_0_0 (ix2 p n) = G (ix2 (⟨p.val, hp⟩ : Fin 32768) n) :=
  extractStridedSlice_apply ![0, 0] G slices_S32768x512_S16384x512_0_0 (ix2 p n) (ix2 (⟨p.val, hp⟩ : Fin 32768) n) (fun a => match a with
    | ⟨0, _⟩ => (Nat.zero_add p.val).symm
    | ⟨1, _⟩ => (Nat.zero_add n.val).symm)

/-- The second slice at an index. -/
theorem slice1_apply (G : S32768x512.Idx → EReal) (p : Fin 16384) (n : Fin 512) (hp : 16384 + p.val < 32768) :
    extractStridedSlice S16384x512 ![16384, 0] G slices_S32768x512_S16384x512_16384_0 (ix2 p n) = G (ix2 (⟨16384 + p.val, hp⟩ : Fin 32768) n) :=
  extractStridedSlice_apply ![16384, 0] G slices_S32768x512_S16384x512_16384_0 (ix2 p n) (ix2 (⟨16384 + p.val, hp⟩ : Fin 32768) n) (fun a => match a with
    | ⟨0, _⟩ => rfl
    | ⟨1, _⟩ => (Nat.zero_add n.val).symm)

/-- After the two slices that follow the region, the first result's buffer holds the first half of the array. -/
theorem tail0 (c : Dev nD) :
    Pipeline.afterTail₀ cfgs (dats m) 0 (V0 m) [hostOps1] c main_v74 = res0 m c := by
  unfold Pipeline.afterTail₀
  show StableHlo.after hostOps1 _ (Proc.devRef .tc main_v74) = _
  after_results
  rw [Pipeline.withArrays_arr _ launch0.win.arr_inj c _ _ 6, final]
  funext i
  obtain ⟨p, n, rfl⟩ : ∃ (p : Fin 16384) (n : Fin 512), i = ix2 p n := ⟨i 0, i 1, eq_ix2 i⟩
  exact slice0_apply (arrayG m c) p n _

/-- And the second result's buffer the second half. -/
theorem tail1 (c : Dev nD) :
    Pipeline.afterTail₀ cfgs (dats m) 0 (V0 m) [hostOps1] c main_v75 = res1 m c := by
  unfold Pipeline.afterTail₀
  show StableHlo.after hostOps1 _ (Proc.devRef .tc main_v75) = _
  after_results
  rw [Pipeline.withArrays_arr _ launch0.win.arr_inj c _ _ 6, final]
  funext i
  obtain ⟨p, n, rfl⟩ : ∃ (p : Fin 16384) (n : Fin 512), i = ix2 p n := ⟨i 0, i 1, eq_ix2 i⟩
  exact slice1_apply (arrayG m c) p n _

/-- The kernel program's run: it terminates without a fault, the two results are the two halves of the output
    array, and the arguments are unchanged. -/
theorem run : θ_run defs (onTc (τ := τ) (main (F := Ideal))) ⟨m, fun _ => 0, ρ⟩ (fun r => ∀ c : Dev nD,
      r.2.mem ((c.tc : Thread nD τ).loc main_v74) = res0 m c
      ∧ r.2.mem ((c.tc : Thread nD τ).loc main_v75) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v74 (Pipeline.mem_restRefs_of main_v74 (by decide) (by decide))).trans (tail0 m c),
      ((h c).2 main_v75 (Pipeline.mem_restRefs_of main_v75 (by decide) (by decide))).trans (tail1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelArray

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.KernelPrefix.lean ====
/-
  THE KERNEL PROGRAM'S OPERATIONS BEFORE ITS REGION, READ AT AN INDEX.

  Before the region the program joins the two index vectors (senders, then receivers), clamps the joined vector to
  [0, 99999], looks up its rows in each of four node tables, and transposes the weights. A row lookup moves negative
  indices up by the table's length, gathers the rows (the gather clamps again), and keeps a gathered row only where the
  index passed the test 0 ≤ index ≤ 99999, putting a fixed constant elsewhere. For an index word that, read signed, lies
  in [0, 100000), every one of these guards is the identity: the clamp returns the word, the move does not apply, the
  test holds, and the gather's own clamp returns the word. So row p of each looked-up table is the table's row number
  "word p of the joined vector", and the transposed weights at (k, n) are the weights at (n, k).
-/
import proofs.«426924_j9938554323124_3_alg».proof.Proof.Gen.KernelIdeal.Frame
import Idealize.ShloMosaic.Lib.Pipeline.Frame
import Idealize.ShloMosaic.Lib.Pipeline.Value
import Idealize.ShloMosaic.Lib.ValueLayout
import Idealize.ShloMosaic.PureOps.Ideal
import Idealize.ShloMosaic.PureOps.Reduce
import Idealize.ShloMosaic.Lib.ValueIdx
import Mathlib.Data.Finset.Fold
import proofs.«426924_j9938554323124_3_alg».proof.Proof.LibGatherRows

set_option maxRecDepth 16384
set_option Elab.async false

noncomputable section

namespace Cert.KernelPrefix

open Idealize.ShloMosaic Idealize.ShloMosaic.TcCoe Idealize.ShloMosaic.ValueIdx
open Cert.KernelIdeal Cert.KernelIdeal.Gen

/-! ## Words in the table's range

A 32-bit word read signed in [0, 100000) is not negative, is its own clamp to [0, 99999], and passes the range test. -/

theorem toInt_zero32 : (0#32 : BitVec 32).toInt = 0 := by decide
theorem toInt_top32 : (99999#32 : BitVec 32).toInt = 99999 := by decide

/-- Such a word is not below zero. -/
theorem slt_zero_false (w : BitVec 32) (h0 : 0 ≤ w.toInt) : w.slt 0#32 = false := by
  cases h : w.slt 0#32 with
  | false => rfl
  | true =>
    have := BitVec.slt_iff_toInt_lt.mp h
    rw [toInt_zero32] at this
    omega

/-- The comparison "below zero" of such a word is the bit 0. -/
theorem cmpi_slt_zero (w : BitVec 32) (h0 : 0 ≤ w.toInt) : IntOp.cmpi .slt w 0#32 = 0#1 := by
  show BitVec.ofBool (w.slt 0#32) = 0#1
  rw [slt_zero_false w h0]; rfl

/-- Clamping such a word below by 0 and above by 99999 leaves it. -/
theorem clip_word (w : BitVec 32) (h0 : 0 ≤ w.toInt) (h1 : w.toInt < 100000) :
    IntOp.minsi 99999#32 (IntOp.maxsi 0#32 w) = w := by
  have e : IntOp.maxsi 0#32 w = w := by
    unfold IntOp.maxsi
    rw [slt_zero_false w h0]; rfl
  rw [e]
  have b : (99999#32 : BitVec 32).slt w = false := by
    cases h : (99999#32 : BitVec 32).slt w with
    | false => rfl
    | true =>
      have := BitVec.slt_iff_toInt_lt.mp h
      rw [toInt_top32] at this
      omega
  unfold IntOp.minsi
  rw [b]; rfl

/-- The range test "at least 0 and at most 99999" of such a word is the bit 1. -/
theorem range_word (w : BitVec 32) (h0 : 0 ≤ w.toInt) (h1 : w.toInt < 100000) :
    IntOp.andi (IntOp.cmpi .sge w 0#32) (IntOp.cmpi .sle w 99999#32) = 1#1 := by
  have a : (0#32 : BitVec 32).sle w = true := BitVec.sle_iff_toInt_le.mpr (by rw [toInt_zero32]; exact h0)
  have b : w.sle 99999#32 = true := BitVec.sle_iff_toInt_le.mpr (by rw [toInt_top32]; omega)
  show IntOp.andi (BitVec.ofBool ((0#32 : BitVec 32).sle w)) (BitVec.ofBool (w.sle 99999#32)) = 1#1
  rw [a, b]; rfl

/-! ## A conjunction of ones -/

/-- The conjunction, from the bit 1, of a family of bits that are all 1 is 1. -/
theorem fold_andi_one {ι : Type} (s : Finset ι) (f : ι → BitVec 1) (h : ∀ k ∈ s, f k = 1#1) :
    s.fold IntOp.andi 1#1 f = 1#1 := by
  classical
  induction s using Finset.induction_on with
  | empty => rfl
  | insert a s ha ih =>
    rw [Finset.fold_insert ha, h a (Finset.mem_insert_self a s), ih (fun k hk => h k (Finset.mem_insert_of_mem hk))]
    rfl

theorem reduces_col : S32768x1.Reduces [1] S32768 := by decide

/-- Row p of a one-column array, with the column's only coordinate put back, is the entry (p, 0). -/
theorem lift_col (p : Fin 32768) (k : Fin (S32768x1.size 1)) : reduces_col.lift (ix1 p) k = ix2 p (0 : Fin 1) := by
  have hk : k.val < 1 := k.isLt
  funext d
  refine Fin.ext ?_
  match d with
  | ⟨0, _⟩ => rfl
  | ⟨1, _⟩ => show k.val = 0; omega

/-- The conjunction, from the bit 1, over the one entry of a row is 1 when that entry is. -/
theorem reduce_and_unit (x : S32768x1.Idx → BitVec 1) (p : Fin 32768) (hx : x (ix2 p (0 : Fin 1)) = 1#1) :
    Host.reduce IntOp.andi x (constantI S_ 1 1#1) reducesTo_S32768x1_S32768_d1 h_S_ (ix1 p) = 1#1 := by
  refine (Host.reduce_eq_fold_single IntOp.andi x _ reducesTo_S32768x1_S32768_d1 reduces_col h_S_ (ix1 p)).trans ?_
  refine fold_andi_one _ _ (fun k _ => ?_)
  show x (reduces_col.lift (ix1 p) k) = 1#1
  rw [lift_col p k]; exact hx

/-! ## What one row lookup computes, stage by stage -/

/-- The index vector with its negative entries moved up by the table's length. -/
def idxFix (ix : S32768.Idx → BitVec 32) : S32768.Idx → BitVec 32 :=
  select (cmpi .slt ix (broadcastInDim S32768 ![] bcast_S_S32768 (constantI S_ 32 0#32)))
    (addi ix (broadcastInDim S32768 ![] bcast_S_S32768 (constantI S_ 32 100000#32))) ix

/-- That vector laid as a column. -/
def idxCol (ix : S32768.Idx → BitVec 32) : S32768x1.Idx → BitVec 32 :=
  broadcastInDim S32768x1 ![0] bcast_S32768_S32768x1_0 (idxFix ix)

/-- Entry by entry, whether the column's index is at least 0 and at most 99999. -/
def inRange (ix : S32768.Idx → BitVec 32) : S32768x1.Idx → BitVec 1 :=
  andi (cmpi .sge (idxCol ix) (broadcastInDim S32768x1 ![] bcast_S_S32768x1 (constantI S_ 32 0#32)))
    (cmpi .sle (idxCol ix) (broadcastInDim S32768x1 ![0, 1] bcast_S1x1_S32768x1_0_1
      (broadcastInDim S1x1 ![1] bcast_S1_S1x1_1 (constantI S1 32 99999#32))))

/-- Row by row, the conjunction of those tests. -/
def rowOk (ix : S32768.Idx → BitVec 32) : S32768.Idx → BitVec 1 :=
  Host.reduce IntOp.andi (inRange ix) (constantI S_ 1 1#1) reducesTo_S32768x1_S32768_d1 h_S_

/-- The row lookup as the program spells it: the rows the column names, gathered, kept where the row's test holds and
    replaced by a fixed constant elsewhere. -/
def takeFn (tb : S100000x128.Idx → EReal) (ix : S32768.Idx → BitVec 32) : S32768x128.Idx → EReal :=
  select (broadcastInDim S32768x128 ![0] bcast_S32768_S32768x128_0 (rowOk ix))
    (Host.gather gather_S100000x128_S32768x1_S32768x128_1_0_n_n_0_1_1128 tb (idxCol ix))
    (broadcastInDim S32768x128 ![] bcast_S_S32768x128 (constant (F := Ideal) S_ .f32 0x7FC00000#32))

section Stages

variable (ix : S32768.Idx → BitVec 32) (p : Fin 32768)

/-- A word that is not negative is not moved. -/
theorem idxFix_apply (h0 : 0 ≤ (ix (ix1 p)).toInt) : idxFix ix (ix1 p) = ix (ix1 p) := by
  show Scalar.select (IntOp.cmpi .slt (ix (ix1 p)) 0#32) (IntOp.addi (ix (ix1 p)) 100000#32) (ix (ix1 p)) = ix (ix1 p)
  rw [cmpi_slt_zero _ h0]; exact select_zero _ _

/-- The column at (p, 0) is the vector at p. -/
theorem idxCol_apply : idxCol ix (ix2 p (0 : Fin 1)) = idxFix ix (ix1 p) := by
  unfold idxCol
  refine broadcastInDim_apply _ _ _ _ _ (fun a => ?_)
  match a with
  | ⟨0, _⟩ =>
    show p.val = if (32768 : Nat) = 1 then 0 else p.val
    rw [if_neg (by decide)]

/-- The range test at (p, 0), on the column's word there. -/
theorem inRange_apply : inRange ix (ix2 p (0 : Fin 1))
    = IntOp.andi (IntOp.cmpi .sge (idxCol ix (ix2 p (0 : Fin 1))) 0#32) (IntOp.cmpi .sle (idxCol ix (ix2 p (0 : Fin 1))) 99999#32) := rfl

/-- A row whose index word is in [0, 100000) passes. -/
theorem rowOk_apply (h0 : 0 ≤ (ix (ix1 p)).toInt) (h1 : (ix (ix1 p)).toInt < 100000) : rowOk ix (ix1 p) = 1#1 := by
  refine reduce_and_unit (inRange ix) p ?_
  rw [inRange_apply, idxCol_apply, idxFix_apply ix p h0]
  exact range_word _ h0 h1

end Stages

/-- Where the index word of row p is in [0, 100000), the lookup's row p is the table's row of that number. -/
theorem takeFn_apply (tb : S100000x128.Idx → EReal) (ix : S32768.Idx → BitVec 32) (p : Fin 32768) (j : Fin 128)
    (h0 : 0 ≤ (ix (ix1 p)).toInt) (h1 : (ix (ix1 p)).toInt < 100000) :
    takeFn tb ix (ix2 p j) = tb (ix2 (⟨(ix (ix1 p)).toInt.toNat, by omega⟩ : Fin 100000) j) := by
  -- the mask at (p, j) is the row's test, which holds
  have em : broadcastInDim S32768x128 ![0] bcast_S32768_S32768x128_0 (rowOk ix) (ix2 p j) = 1#1 := by
    refine (broadcastInDim_apply _ _ _ _ (ix1 p) (fun a => ?_)).trans (rowOk_apply ix p h0 h1)
    match a with
    | ⟨0, _⟩ =>
      show p.val = if (32768 : Nat) = 1 then 0 else p.val
      rw [if_neg (by decide)]
  -- the column's word at (p, 0)
  have ec : idxCol ix (ix2 p (0 : Fin 1)) = ix (ix1 p) := (idxCol_apply ix p).trans (idxFix_apply ix p h0)
  -- the gathered row
  have eg : Host.gather gather_S100000x128_S32768x1_S32768x128_1_0_n_n_0_1_1128 tb (idxCol ix) (ix2 p j)
      = tb (ix2 (⟨min (idxCol ix (ix2 p (0 : Fin 1))).toInt.toNat (100000 - 1), by omega⟩ : Fin 100000) j) :=
    Cert.LibGatherRows.gather_rows_apply (by decide) gather_S100000x128_S32768x1_S32768x128_1_0_n_n_0_1_1128_wf tb (idxCol ix) p j
  unfold takeFn
  rw [select_apply, em, select_one, eg]
  have hrow : ∀ (a b : Nat) (ha : a < 100000) (hb : b < 100000), a = b →
      tb (ix2 (⟨a, ha⟩ : Fin 100000) j) = tb (ix2 (⟨b, hb⟩ : Fin 100000) j) := by
    intro a b ha hb e; subst e; rfl
  refine hrow _ _ _ _ ?_
  rw [ec]; omega

/-! ## Each list read from any buffer contents

What a list's result buffer holds after the list has run from contents X, as the list's operations applied to what X holds
at the list's inputs. (The operations move each value between its buffer's type and its own along an equation of types;
moved there and back it is the value.) -/

section Lists

variable (X : Valuation τ sig (Elt Ideal))

/-- The clamp: at most 99999, of at least 0, of the joined vector. -/
theorem clip_read : StableHlo.after hostOps0_1 X (Proc.devRef .tc main_v66)
    = minsi (broadcastInDim S32768 ![] bcast_S_S32768 (X (Proc.devRef .tc main_c_15)))
        (maxsi (broadcastInDim S32768 ![] bcast_S_S32768 (X (Proc.devRef .tc main_c_14))) (X (Proc.devRef .tc main_v65))) := by
  unfold hostOps0_1
  after_results_simp
  simp only [cast_cast, cast_eq]
  rfl

/-- The four row lookups: the same operations on a table and the clamped index vector. -/
theorem take2_read : StableHlo.after hostOps0_2 X (Proc.devRef .tc main_v67)
    = takeFn (X (Proc.devRef .tc main_arg0)) (X (Proc.devRef .tc main_v66)) := by
  unfold hostOps0_2
  after_results_simp
  simp only [cast_cast, cast_eq]
  rfl
theorem take3_read : StableHlo.after hostOps0_3 X (Proc.devRef .tc main_v68)
    = takeFn (X (Proc.devRef .tc main_v38)) (X (Proc.devRef .tc main_v66)) := by
  unfold hostOps0_3
  after_results_simp
  simp only [cast_cast, cast_eq]
  rfl
theorem take4_read : StableHlo.after hostOps0_4 X (Proc.devRef .tc main_v69)
    = takeFn (X (Proc.devRef .tc main_v51)) (X (Proc.devRef .tc main_v66)) := by
  unfold hostOps0_4
  after_results_simp
  simp only [cast_cast, cast_eq]
  rfl
theorem take5_read : StableHlo.after hostOps0_5 X (Proc.devRef .tc main_v70)
    = takeFn (X (Proc.devRef .tc main_v64)) (X (Proc.devRef .tc main_v66)) := by
  unfold hostOps0_5
  after_results_simp
  simp only [cast_cast, cast_eq]
  rfl

/-- The weights, transposed and narrowed. -/
theorem weight_read : (StableHlo.after hostOps0_6 X (Proc.devRef .tc main_v72) : S512x512.Idx → EReal)
    = (truncf (F := Ideal) (φ := .f32) .bf16
        (transpose S512x512 [1, 0] (X (Proc.devRef .tc main_arg4) : S512x512.Idx → Ideal .f32) transposes_S512x512_S512x512_1_0)
        bitsLt_bf16_f32 : S512x512.Idx → EReal) := by
  unfold hostOps0_6
  after_results

end Lists

/-! ## The buffers, list by list

The operations before the kernel's region are seven lists run in order. The buffers after each list are named, so that a
buffer is read inside the one list that writes it and carried unchanged through the lists that do not. -/

variable (m : (ℓ : Loc nD τ sig) → Buf (Elt Ideal) ℓ) (c : Dev nD)

/-- The first list, less its last three operations (the two index vectors joined, and the two clamp bounds). -/
def pre0 : List (HloOp τ sig (Elt Ideal)) := List.take 81 hostOps0

/-- Those last three operations. -/
def last0 : List (HloOp τ sig (Elt Ideal)) :=
  [ StableHlo.binary main_arg2 main_arg3 main_v65 ((fun a b => concatenate S32768 0 [⟨S16384, a⟩, ⟨S16384, b⟩] concatenates_S16384_S16384_S32768_d0) : (⟨S16384, .i32⟩ : BufTy).Contents (Elt Ideal) → (⟨S16384, .i32⟩ : BufTy).Contents (Elt Ideal) → (⟨S32768, .i32⟩ : BufTy).Contents (Elt Ideal)),
    StableHlo.nullary main_c_14 (constantI S_ 32 0#32),
    StableHlo.nullary main_c_15 (constantI S_ 32 99999#32) ]

theorem hostOps0_cut : (hostOps0 : List (HloOp τ sig (Elt Ideal))) = pre0 ++ last0 :=
  (List.take_append_drop 81 hostOps0).symm

/-- The buffers before the two index vectors are joined. -/
def X0 : Valuation τ sig (Elt Ideal) := StableHlo.after pre0 (fun b => m (c, b))
/-- The buffers after the first list, … -/
def W0 : Valuation τ sig (Elt Ideal) := StableHlo.after last0 (X0 m c)
/-- … after the clamp, … -/
def W1 : Valuation τ sig (Elt Ideal) := StableHlo.after hostOps0_1 (W0 m c)
/-- … and after each of the four row lookups. -/
def W2 : Valuation τ sig (Elt Ideal) := StableHlo.after hostOps0_2 (W1 m c)
def W3 : Valuation τ sig (Elt Ideal) := StableHlo.after hostOps0_3 (W2 m c)
def W4 : Valuation τ sig (Elt Ideal) := StableHlo.after hostOps0_4 (W3 m c)
def W5 : Valuation τ sig (Elt Ideal) := StableHlo.after hostOps0_5 (W4 m c)

theorem V0_W0 : V0 m c = StableHlo.after (hostOps0_1 ++ (hostOps0_2 ++ (hostOps0_3 ++ (hostOps0_4 ++ (hostOps0_5 ++ hostOps0_6))))) (W0 m c) := by
  have e : StableHlo.after hostOps0 (fun b => m (c, b)) = W0 m c := by
    unfold W0 X0
    rw [hostOps0_cut, StableHlo.after_append]
  unfold V0
  simp only [List.flatten_cons, List.flatten_nil, List.append_nil]
  rw [StableHlo.after_append, e]
theorem V0_W1 : V0 m c = StableHlo.after (hostOps0_2 ++ (hostOps0_3 ++ (hostOps0_4 ++ (hostOps0_5 ++ hostOps0_6)))) (W1 m c) := by
  rw [V0_W0, StableHlo.after_append]; rfl
theorem V0_W2 : V0 m c = StableHlo.after (hostOps0_3 ++ (hostOps0_4 ++ (hostOps0_5 ++ hostOps0_6))) (W2 m c) := by
  rw [V0_W1, StableHlo.after_append]; rfl
theorem V0_W3 : V0 m c = StableHlo.after (hostOps0_4 ++ (hostOps0_5 ++ hostOps0_6)) (W3 m c) := by
  rw [V0_W2, StableHlo.after_append]; rfl
theorem V0_W4 : V0 m c = StableHlo.after (hostOps0_5 ++ hostOps0_6) (W4 m c) := by
  rw [V0_W3, StableHlo.after_append]; rfl
theorem V0_W5 : V0 m c = StableHlo.after hostOps0_6 (W5 m c) := by
  rw [V0_W4, StableHlo.after_append]; rfl

attribute [irreducible] X0 W0 W1 W2 W3 W4 W5

/-- Closes "none of these operations writes this buffer": each operation writes its own result buffer only, and that
    buffer is another one. -/
local macro "no_writer" : tactic => `(tactic| (
  refine StableHlo.after_of_forall_not_mem _ _ (List.forall_iff_forall_mem.mp ?_)
  simp only [hostOps0_1, hostOps0_2, hostOps0_3, hostOps0_4, hostOps0_5, hostOps0_6, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ### Buffers carried unchanged to the region -/

theorem keep0_v65 : V m c main_v65 = W0 m c (Proc.devRef .tc main_v65) := by
  show V0 m c (Proc.devRef .tc main_v65) = _
  rw [V0_W0]; no_writer
theorem keep1_v66 : V m c main_v66 = W1 m c (Proc.devRef .tc main_v66) := by
  show V0 m c (Proc.devRef .tc main_v66) = _
  rw [V0_W1]; no_writer
theorem keep1_arg0 : V m c main_arg0 = W1 m c (Proc.devRef .tc main_arg0) := by
  show V0 m c (Proc.devRef .tc main_arg0) = _
  rw [V0_W1]; no_writer
theorem keep2_v67 : V m c main_v67 = W2 m c (Proc.devRef .tc main_v67) := by
  show V0 m c (Proc.devRef .tc main_v67) = _
  rw [V0_W2]; no_writer
theorem keep2_v38 : V m c main_v38 = W2 m c (Proc.devRef .tc main_v38) := by
  show V0 m c (Proc.devRef .tc main_v38) = _
  rw [V0_W2]; no_writer
theorem keep2_v66 : V m c main_v66 = W2 m c (Proc.devRef .tc main_v66) := by
  show V0 m c (Proc.devRef .tc main_v66) = _
  rw [V0_W2]; no_writer
theorem keep3_v68 : V m c main_v68 = W3 m c (Proc.devRef .tc main_v68) := by
  show V0 m c (Proc.devRef .tc main_v68) = _
  rw [V0_W3]; no_writer
theorem keep3_v51 : V m c main_v51 = W3 m c (Proc.devRef .tc main_v51) := by
  show V0 m c (Proc.devRef .tc main_v51) = _
  rw [V0_W3]; no_writer
theorem keep3_v66 : V m c main_v66 = W3 m c (Proc.devRef .tc main_v66) := by
  show V0 m c (Proc.devRef .tc main_v66) = _
  rw [V0_W3]; no_writer
theorem keep4_v69 : V m c main_v69 = W4 m c (Proc.devRef .tc main_v69) := by
  show V0 m c (Proc.devRef .tc main_v69) = _
  rw [V0_W4]; no_writer
theorem keep4_v64 : V m c main_v64 = W4 m c (Proc.devRef .tc main_v64) := by
  show V0 m c (Proc.devRef .tc main_v64) = _
  rw [V0_W4]; no_writer
theorem keep4_v66 : V m c main_v66 = W4 m c (Proc.devRef .tc main_v66) := by
  show V0 m c (Proc.devRef .tc main_v66) = _
  rw [V0_W4]; no_writer
theorem keep5_v70 : V m c main_v70 = W5 m c (Proc.devRef .tc main_v70) := by
  show V0 m c (Proc.devRef .tc main_v70) = _
  rw [V0_W5]; no_writer
theorem keep5_arg4 : V m c main_arg4 = W5 m c (Proc.devRef .tc main_arg4) := by
  show V0 m c (Proc.devRef .tc main_arg4) = _
  rw [V0_W5]; no_writer

/-- No operation of the first list writes an argument of the program. -/
theorem X0_arg2 : X0 m c (Proc.devRef .tc main_arg2) = m ((c : Thread nD τ).loc main_arg2) := by
  unfold X0 pre0
  refine StableHlo.after_of_forall_not_mem (b := Proc.devRef .tc main_arg2) _ _ (fun op hop => ?_)
  exact (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)) : ∀ op ∈ (hostOps0 : List (HloOp τ sig (Elt Ideal))), Proc.devRef .tc main_arg2 ∉ op.writes) op (List.mem_of_mem_take hop)
theorem X0_arg3 : X0 m c (Proc.devRef .tc main_arg3) = m ((c : Thread nD τ).loc main_arg3) := by
  unfold X0 pre0
  refine StableHlo.after_of_forall_not_mem (b := Proc.devRef .tc main_arg3) _ _ (fun op hop => ?_)
  exact (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)) : ∀ op ∈ (hostOps0 : List (HloOp τ sig (Elt Ideal))), Proc.devRef .tc main_arg3 ∉ op.writes) op (List.mem_of_mem_take hop)

/-! ### Each result read inside the list that writes it -/

/-- The joined index vector: the senders, then the receivers. -/
theorem read0_v65 : W0 m c (Proc.devRef .tc main_v65)
    = concatenate S32768 0 [⟨S16384, X0 m c (Proc.devRef .tc main_arg2)⟩, ⟨S16384, X0 m c (Proc.devRef .tc main_arg3)⟩] concatenates_S16384_S16384_S32768_d0 := by
  unfold W0 last0
  after_results
theorem read0_c14 : W0 m c (Proc.devRef .tc main_c_14) = constantI S_ 32 0#32 := by
  unfold W0 last0
  after_results
theorem read0_c15 : W0 m c (Proc.devRef .tc main_c_15) = constantI S_ 32 99999#32 := by
  unfold W0 last0
  after_results

/-- The clamped index vector. -/
theorem read1_v66 : W1 m c (Proc.devRef .tc main_v66)
    = minsi (broadcastInDim S32768 ![] bcast_S_S32768 (W0 m c (Proc.devRef .tc main_c_15)))
        (maxsi (broadcastInDim S32768 ![] bcast_S_S32768 (W0 m c (Proc.devRef .tc main_c_14))) (W0 m c (Proc.devRef .tc main_v65))) := by
  unfold W1; exact clip_read (W0 m c)

/-- The four looked-up tables. -/
theorem read2_v67 : W2 m c (Proc.devRef .tc main_v67)
    = takeFn (W1 m c (Proc.devRef .tc main_arg0)) (W1 m c (Proc.devRef .tc main_v66)) := by
  unfold W2; exact take2_read (W1 m c)
theorem read3_v68 : W3 m c (Proc.devRef .tc main_v68)
    = takeFn (W2 m c (Proc.devRef .tc main_v38)) (W2 m c (Proc.devRef .tc main_v66)) := by
  unfold W3; exact take3_read (W2 m c)
theorem read4_v69 : W4 m c (Proc.devRef .tc main_v69)
    = takeFn (W3 m c (Proc.devRef .tc main_v51)) (W3 m c (Proc.devRef .tc main_v66)) := by
  unfold W4; exact take4_read (W3 m c)
theorem read5_v70 : W5 m c (Proc.devRef .tc main_v70)
    = takeFn (W4 m c (Proc.devRef .tc main_v64)) (W4 m c (Proc.devRef .tc main_v66)) := by
  unfold W5; exact take5_read (W4 m c)

/-- The weights, transposed and narrowed. -/
theorem read6_v72 : (V m c main_v72 : S512x512.Idx → EReal)
    = (truncf (F := Ideal) (φ := .f32) .bf16
        (transpose S512x512 [1, 0] (W5 m c (Proc.devRef .tc main_arg4) : S512x512.Idx → Ideal .f32) transposes_S512x512_S512x512_1_0)
        bitsLt_bf16_f32 : S512x512.Idx → EReal) := by
  show (V0 m c (Proc.devRef .tc main_v72) : S512x512.Idx → EReal) = _
  rw [V0_W5]; exact weight_read (W5 m c)

/-! ## The prefix read at an index -/

/-- The four node tables as the region finds them: the embedding and the three tables computed from it. -/
def table (l : Fin 4) : S100000x128.Idx → EReal :=
  match l with
  | 0 => (V m c main_arg0 : S100000x128.Idx → EReal)
  | 1 => (V m c main_v38 : S100000x128.Idx → EReal)
  | 2 => (V m c main_v51 : S100000x128.Idx → EReal)
  | 3 => (V m c main_v64 : S100000x128.Idx → EReal)

/-- The rows looked up in each table. -/
def gathered (l : Fin 4) : S32768x128.Idx → EReal :=
  match l with
  | 0 => (V m c main_v67 : S32768x128.Idx → EReal)
  | 1 => (V m c main_v68 : S32768x128.Idx → EReal)
  | 2 => (V m c main_v69 : S32768x128.Idx → EReal)
  | 3 => (V m c main_v70 : S32768x128.Idx → EReal)

/-- Entry p of the joined index vector. -/
def idxWord (p : Fin 32768) : BitVec 32 := (V m c main_v65 : S32768.Idx → BitVec 32) (ix1 p)

/-- The joined index vector is the two argument vectors laid end to end. -/
theorem v65_eq : (V m c main_v65 : S32768.Idx → BitVec 32)
    = concatenate S32768 0 [⟨S16384, (V m c main_arg2 : S16384.Idx → BitVec 32)⟩, ⟨S16384, (V m c main_arg3 : S16384.Idx → BitVec 32)⟩]
        concatenates_S16384_S16384_S32768_d0 := by
  rw [keep0_v65, read0_v65, X0_arg2, X0_arg3, V_main_arg2, V_main_arg3]

/-- Its first half is the senders. -/
theorem idxWord_senders (p : Fin 32768) (h : p.val < 16384) :
    idxWord m c p = (V m c main_arg2 : S16384.Idx → BitVec 32) (ix1 ⟨p.val, h⟩) := by
  unfold idxWord
  rw [v65_eq]
  refine concatenate_pair_apply_left (t := S32768) (s₁ := S16384) (s₂ := S16384) (0 : Fin 1) _ _
    concatenates_S16384_S16384_S32768_d0 (ix1 p) (rfl : S16384.rank = S32768.rank) (ix1 (⟨p.val, h⟩ : Fin 16384)) (fun b => ?_)
  match b with
  | ⟨0, _⟩ => rfl

/-- Its second half is the receivers. -/
theorem idxWord_receivers (p : Fin 32768) (h : 16384 ≤ p.val) :
    idxWord m c p = (V m c main_arg3 : S16384.Idx → BitVec 32) (ix1 ⟨p.val - 16384, by have := p.isLt; omega⟩) := by
  unfold idxWord
  rw [v65_eq]
  refine concatenate_pair_apply_right (t := S32768) (s₁ := S16384) (s₂ := S16384) (0 : Fin 1) _ _
    concatenates_S16384_S16384_S32768_d0 (ix1 p) (rfl : S16384.rank = S32768.rank) (rfl : S16384.rank = S32768.rank)
    (ix1 (⟨p.val - 16384, by have := p.isLt; omega⟩ : Fin 16384)) (fun b hb => ?_) ?_
  · match b with
    | ⟨0, _⟩ => exact absurd rfl hb
  · show p.val - 16384 + 16384 = p.val
    omega

/-- The clamped index vector at p, on the joined vector's word. -/
theorem v66_apply (p : Fin 32768) : (V m c main_v66 : S32768.Idx → BitVec 32) (ix1 p)
    = IntOp.minsi 99999#32 (IntOp.maxsi 0#32 (idxWord m c p)) := by
  unfold idxWord
  rw [keep1_v66, read1_v66, read0_c14, read0_c15, keep0_v65]
  rfl

/-- A word of the joined vector in [0, 100000) is left by the clamp. -/
theorem v66_word (p : Fin 32768) (h0 : 0 ≤ (idxWord m c p).toInt) (h1 : (idxWord m c p).toInt < 100000) :
    (V m c main_v66 : S32768.Idx → BitVec 32) (ix1 p) = idxWord m c p :=
  (v66_apply m c p).trans (clip_word _ h0 h1)

/-- One lookup, on any table, at a row whose word is in [0, 100000): that table's row of that number. -/
theorem take_v66_apply (tb : S100000x128.Idx → EReal) (p : Fin 32768) (j : Fin 128)
    (h0 : 0 ≤ (idxWord m c p).toInt) (h1 : (idxWord m c p).toInt < 100000) :
    takeFn tb (V m c main_v66 : S32768.Idx → BitVec 32) (ix2 p j)
      = tb (ix2 (⟨(idxWord m c p).toInt.toNat, by omega⟩ : Fin 100000) j) := by
  have e := v66_word m c p h0 h1
  rw [takeFn_apply tb _ p j (by rw [e]; exact h0) (by rw [e]; exact h1)]
  have hrow : ∀ (a b : Nat) (ha : a < 100000) (hb : b < 100000), a = b →
      tb (ix2 (⟨a, ha⟩ : Fin 100000) j) = tb (ix2 (⟨b, hb⟩ : Fin 100000) j) := by
    intro a b ha hb e; subst e; rfl
  refine hrow _ _ _ _ ?_
  rw [e]

theorem v67_eq : (V m c main_v67 : S32768x128.Idx → EReal)
    = takeFn (V m c main_arg0 : S100000x128.Idx → EReal) (V m c main_v66 : S32768.Idx → BitVec 32) := by
  rw [keep2_v67, read2_v67, keep1_arg0, keep1_v66]
theorem v68_eq : (V m c main_v68 : S32768x128.Idx → EReal)
    = takeFn (V m c main_v38 : S100000x128.Idx → EReal) (V m c main_v66 : S32768.Idx → BitVec 32) := by
  rw [keep3_v68, read3_v68, keep2_v38, keep2_v66]
theorem v69_eq : (V m c main_v69 : S32768x128.Idx → EReal)
    = takeFn (V m c main_v51 : S100000x128.Idx → EReal) (V m c main_v66 : S32768.Idx → BitVec 32) := by
  rw [keep4_v69, read4_v69, keep3_v51, keep3_v66]
theorem v70_eq : (V m c main_v70 : S32768x128.Idx → EReal)
    = takeFn (V m c main_v64 : S100000x128.Idx → EReal) (V m c main_v66 : S32768.Idx → BitVec 32) := by
  rw [keep5_v70, read5_v70, keep4_v64, keep4_v66]

theorem gathered0_apply (p : Fin 32768) (j : Fin 128)
    (h0 : 0 ≤ (idxWord m c p).toInt) (h1 : (idxWord m c p).toInt < 100000) :
    (V m c main_v67 : S32768x128.Idx → EReal) (ix2 p j)
      = (V m c main_arg0 : S100000x128.Idx → EReal) (ix2 (⟨(idxWord m c p).toInt.toNat, by omega⟩ : Fin 100000) j) := by
  rw [v67_eq]
  exact take_v66_apply m c (V m c main_arg0 : S100000x128.Idx → EReal) p j h0 h1
theorem gathered1_apply (p : Fin 32768) (j : Fin 128)
    (h0 : 0 ≤ (idxWord m c p).toInt) (h1 : (idxWord m c p).toInt < 100000) :
    (V m c main_v68 : S32768x128.Idx → EReal) (ix2 p j)
      = (V m c main_v38 : S100000x128.Idx → EReal) (ix2 (⟨(idxWord m c p).toInt.toNat, by omega⟩ : Fin 100000) j) := by
  rw [v68_eq]
  exact take_v66_apply m c (V m c main_v38 : S100000x128.Idx → EReal) p j h0 h1
theorem gathered2_apply (p : Fin 32768) (j : Fin 128)
    (h0 : 0 ≤ (idxWord m c p).toInt) (h1 : (idxWord m c p).toInt < 100000) :
    (V m c main_v69 : S32768x128.Idx → EReal) (ix2 p j)
      = (V m c main_v51 : S100000x128.Idx → EReal) (ix2 (⟨(idxWord m c p).toInt.toNat, by omega⟩ : Fin 100000) j) := by
  rw [v69_eq]
  exact take_v66_apply m c (V m c main_v51 : S100000x128.Idx → EReal) p j h0 h1
theorem gathered3_apply (p : Fin 32768) (j : Fin 128)
    (h0 : 0 ≤ (idxWord m c p).toInt) (h1 : (idxWord m c p).toInt < 100000) :
    (V m c main_v70 : S32768x128.Idx → EReal) (ix2 p j)
      = (V m c main_v64 : S100000x128.Idx → EReal) (ix2 (⟨(idxWord m c p).toInt.toNat, by omega⟩ : Fin 100000) j) := by
  rw [v70_eq]
  exact take_v66_apply m c (V m c main_v64 : S100000x128.Idx → EReal) p j h0 h1

/-- The definitions at each of the four tables. -/
theorem gathered_0 : gathered m c 0 = (V m c main_v67 : S32768x128.Idx → EReal) := rfl
theorem table_0 : table m c 0 = (V m c main_arg0 : S100000x128.Idx → EReal) := rfl
theorem gathered_1 : gathered m c 1 = (V m c main_v68 : S32768x128.Idx → EReal) := rfl
theorem table_1 : table m c 1 = (V m c main_v38 : S100000x128.Idx → EReal) := rfl
theorem gathered_2 : gathered m c 2 = (V m c main_v69 : S32768x128.Idx → EReal) := rfl
theorem table_2 : table m c 2 = (V m c main_v51 : S100000x128.Idx → EReal) := rfl
theorem gathered_3 : gathered m c 3 = (V m c main_v70 : S32768x128.Idx → EReal) := rfl
theorem table_3 : table m c 3 = (V m c main_v64 : S100000x128.Idx → EReal) := rfl

theorem gathered_apply_0 (p : Fin 32768) (j : Fin 128)
    (h0 : 0 ≤ (idxWord m c p).toInt) (h1 : (idxWord m c p).toInt < 100000) :
    gathered m c 0 (ix2 p j) = table m c 0 (ix2 (⟨(idxWord m c p).toInt.toNat, by omega⟩ : Fin 100000) j) := by
  rw [gathered_0, table_0]; exact gathered0_apply m c p j h0 h1
theorem gathered_apply_1 (p : Fin 32768) (j : Fin 128)
    (h0 : 0 ≤ (idxWord m c p).toInt) (h1 : (idxWord m c p).toInt < 100000) :
    gathered m c 1 (ix2 p j) = table m c 1 (ix2 (⟨(idxWord m c p).toInt.toNat, by omega⟩ : Fin 100000) j) := by
  rw [gathered_1, table_1]; exact gathered1_apply m c p j h0 h1
theorem gathered_apply_2 (p : Fin 32768) (j : Fin 128)
    (h0 : 0 ≤ (idxWord m c p).toInt) (h1 : (idxWord m c p).toInt < 100000) :
    gathered m c 2 (ix2 p j) = table m c 2 (ix2 (⟨(idxWord m c p).toInt.toNat, by omega⟩ : Fin 100000) j) := by
  rw [gathered_2, table_2]; exact gathered2_apply m c p j h0 h1
theorem gathered_apply_3 (p : Fin 32768) (j : Fin 128)
    (h0 : 0 ≤ (idxWord m c p).toInt) (h1 : (idxWord m c p).toInt < 100000) :
    gathered m c 3 (ix2 p j) = table m c 3 (ix2 (⟨(idxWord m c p).toInt.toNat, by omega⟩ : Fin 100000) j) := by
  rw [gathered_3, table_3]; exact gathered3_apply m c p j h0 h1

/-- What holds of each of four things holds of any of them. -/
theorem fin4_cases (P : Fin 4 → Prop) (h0 : P 0) (h1 : P 1) (h2 : P 2) (h3 : P 3) (l : Fin 4) : P l := by
  rcases l with ⟨v, hv⟩
  match v, hv with
  | 0, _ => exact h0
  | 1, _ => exact h1
  | 2, _ => exact h2
  | 3, _ => exact h3

/-- Each gathered table's row p is its table's row named by the joined index vector's word at p, when that word is in
    [0, 100000). -/
theorem gathered_apply (l : Fin 4) (p : Fin 32768) (j : Fin 128)
    (h0 : 0 ≤ (idxWord m c p).toInt) (h1 : (idxWord m c p).toInt < 100000) :
    gathered m c l (ix2 p j) = table m c l (ix2 (⟨(idxWord m c p).toInt.toNat, by omega⟩ : Fin 100000) j) :=
  fin4_cases (fun l => gathered m c l (ix2 p j) = table m c l (ix2 (⟨(idxWord m c p).toInt.toNat, by omega⟩ : Fin 100000) j))
    (gathered_apply_0 m c p j h0 h1) (gathered_apply_1 m c p j h0 h1) (gathered_apply_2 m c p j h0 h1)
    (gathered_apply_3 m c p j h0 h1) l

/-- The weights the region reads are the argument's, transposed (the narrowing of the format changes no value). -/
theorem weight_apply (k n : Fin 512) :
    (V m c main_v72 : S512x512.Idx → EReal) (ix2 k n) = (V m c main_arg4 : S512x512.Idx → EReal) (ix2 n k) := by
  rw [read6_v72, keep5_arg4]
  exact transpose_ix2_apply (a := 512) (b := 512) (W5 m c (Proc.devRef .tc main_arg4) : S512x512.Idx → EReal)
    transposes_S512x512_S512x512_1_0 k n

end Cert.KernelPrefix

end
-- ==== Proof.RefRows.lean ====
/-
  The reference program read one entry at a time.

  The reference forms four node tables (the embedding and three tables computed from it and the edges), divides every
  row of each by its Euclidean length bounded below by the guard, lays the four unit rows of a node end to end into 512
  features, multiplies by the transposed weights, adds the bias, and takes the rows named by the two index vectors.

  * One normalisation serves all four tables: the chain "squares, row sum from zero, square root, maximum with the
    guard, divide" is a function of the table alone, so the entry (r, j) of a normalised table is entry j of the unit
    row of row r of the table (norm_apply), and the three later chains are the first one at another table.
  * The concatenation along axis 1 of four pieces of 128 columns reads piece k / 128 at column k % 128 (feat_apply).
  * The product at (r, n) is the sum over k of feature k of node r times the transposed weight at (k, n); the bias
    broadcast down the rows reads the bias at n (layer_apply).
  * A row gather reads the row at the index word, read signed and clamped to [0, 99999]; the word went through
    "if negative add 100000", which does nothing to a word that is not negative; a word in [0, 100000) is its own
    clamp (senders_apply, receivers_apply).
  * The transposed weights at (k, n) are the weights at (n, k) (weight_apply).
-/
import proofs.«426924_j9938554323124_3_alg».proof.Proof.Gen.ReferenceIdeal.Read
import proofs.«426924_j9938554323124_3_alg».proof.Proof.RowSpec
import proofs.«426924_j9938554323124_3_alg».proof.Proof.LibGatherRows

noncomputable section

open scoped BigOperators

namespace Cert.RefRows

open Idealize.ShloMosaic Idealize.ShloMosaic.ValueIdx
open Cert.ReferenceIdeal Cert.ReferenceIdeal.Gen Cert.ReferenceIdeal.Read

/-! ## The row normalisation -/

/-- The normalisation chain applied to any table T, at (r, j): entry j of row r divided by the row's length. -/
theorem norm_apply (T : (⟨S100000x128, .f32⟩ : BufTy).Contents (Elt Ideal)) (r : Fin 100000) (j : Fin 128) :
    val_main_v30 (F := Ideal) T (ix2 r j) = Cert.RowSpec.unitAt (fun j' => T (ix2 r j')) j := by
  rw [val_main_v30_apply, val_main_v29_apply, val_main_v28_apply, val_main_v26_apply,
    val_main_call0_v2_apply, val_main_call0_v1_apply, val_main_v27_apply, val_main_cst_5_apply,
    val_main_call0_cst_apply]
  have hidx : ∀ k : Fin 128, idx_main_call0_v1 (idx_main_call0_v2 (idx_main_v29 (ix2 r j))) k = ix2 r k :=
    fun k => funext fun a => by match a with | ⟨0, _⟩ => rfl | ⟨1, _⟩ => rfl
  simp only [hidx, val_main_call0_v0_apply, Ideal.hostDivf_def, Ideal.hostUnary_sqrt_def, Ideal.maximumf_def,
    Ideal.mulf_def, Ideal.ofBits_def, Ideal.ofBits_zero_f32, zero_add]
  rfl

/-- The second, third and fourth normalisations are the first one at the second, third and fourth table. -/
theorem norm1_eq (x0 : (⟨S100000x128, .f32⟩ : BufTy).Contents (Elt Ideal)) (x1 : (⟨S2x1600000, .i32⟩ : BufTy).Contents (Elt Ideal)) :
    val_main_v48 (F := Ideal) x0 x1 = val_main_v30 (F := Ideal) (val_main_v43 (F := Ideal) x0 x1) := rfl
theorem norm2_eq (x0 : (⟨S100000x128, .f32⟩ : BufTy).Contents (Elt Ideal)) (x1 : (⟨S2x1600000, .i32⟩ : BufTy).Contents (Elt Ideal)) :
    val_main_v66 (F := Ideal) x0 x1 = val_main_v30 (F := Ideal) (val_main_v61 (F := Ideal) x0 x1) := rfl
theorem norm3_eq (x0 : (⟨S100000x128, .f32⟩ : BufTy).Contents (Elt Ideal)) (x1 : (⟨S2x1600000, .i32⟩ : BufTy).Contents (Elt Ideal)) :
    val_main_v84 (F := Ideal) x0 x1 = val_main_v30 (F := Ideal) (val_main_v79 (F := Ideal) x0 x1) := rfl

/-! ## The four tables and the four normalised pieces -/

/-- The four node tables of the reference as functions of the embedding and the edges. -/
def tbl (x0 : (⟨S100000x128, .f32⟩ : BufTy).Contents (Elt Ideal)) (x1 : (⟨S2x1600000, .i32⟩ : BufTy).Contents (Elt Ideal)) :
    Fin 4 → (S100000x128.Idx → EReal) := fun l => match l with
  | ⟨0, _⟩ => x0
  | ⟨1, _⟩ => val_main_v43 (F := Ideal) x0 x1
  | ⟨2, _⟩ => val_main_v61 (F := Ideal) x0 x1
  | ⟨3, _⟩ => val_main_v79 (F := Ideal) x0 x1

/-- The four normalised tables, the pieces of the concatenation. -/
def piece (x0 : (⟨S100000x128, .f32⟩ : BufTy).Contents (Elt Ideal)) (x1 : (⟨S2x1600000, .i32⟩ : BufTy).Contents (Elt Ideal)) :
    Fin 4 → (S100000x128.Idx → EReal) := fun l => match l with
  | ⟨0, _⟩ => val_main_v30 (F := Ideal) x0
  | ⟨1, _⟩ => val_main_v48 (F := Ideal) x0 x1
  | ⟨2, _⟩ => val_main_v66 (F := Ideal) x0 x1
  | ⟨3, _⟩ => val_main_v84 (F := Ideal) x0 x1

/-- Piece l at (r, j) is entry j of the unit row of row r of table l. -/
theorem piece_apply (x0 : (⟨S100000x128, .f32⟩ : BufTy).Contents (Elt Ideal)) (x1 : (⟨S2x1600000, .i32⟩ : BufTy).Contents (Elt Ideal))
    (l : Fin 4) (r : Fin 100000) (j : Fin 128) :
    piece x0 x1 l (ix2 r j) = Cert.RowSpec.unitAt (fun j' => tbl x0 x1 l (ix2 r j')) j := by
  match l with
  | ⟨0, _⟩ => exact norm_apply x0 r j
  | ⟨1, _⟩ => exact (congrFun (norm1_eq x0 x1) (ix2 r j)).trans (norm_apply (val_main_v43 (F := Ideal) x0 x1) r j)
  | ⟨2, _⟩ => exact (congrFun (norm2_eq x0 x1) (ix2 r j)).trans (norm_apply (val_main_v61 (F := Ideal) x0 x1) r j)
  | ⟨3, _⟩ => exact (congrFun (norm3_eq x0 x1) (ix2 r j)).trans (norm_apply (val_main_v79 (F := Ideal) x0 x1) r j)

/-! ## The concatenation -/

/-- The concatenation's list of pieces is the list of the four pieces in order. -/
theorem concat_eq (x0 : (⟨S100000x128, .f32⟩ : BufTy).Contents (Elt Ideal)) (x1 : (⟨S2x1600000, .i32⟩ : BufTy).Contents (Elt Ideal)) :
    val_main_v85 (F := Ideal) x0 x1
      = concatenate S100000x512 1 (List.ofFn fun n : Fin 4 => (⟨S100000x128, piece x0 x1 n⟩ : (s : Shape) × (s.Idx → EReal)))
          concatenates_S100000x128_S100000x128_S100000x128_S100000x128_S100000x512_d1 := rfl

/-- The 512 features of node r: feature k is entry k % 128 of the unit row number k / 128. -/
theorem feat_apply (x0 : (⟨S100000x128, .f32⟩ : BufTy).Contents (Elt Ideal)) (x1 : (⟨S2x1600000, .i32⟩ : BufTy).Contents (Elt Ideal))
    (r : Fin 100000) (k : Fin 512) :
    val_main_v85 (F := Ideal) x0 x1 (ix2 r k) = Cert.RowSpec.feat (fun l j => tbl x0 x1 l (ix2 r j)) k := by
  rw [concat_eq]
  have hk := k.isLt
  refine (concatenate_ofFn_apply (1 : Fin S100000x512.rank) (piece x0 x1) _ rfl 128 rfl (ix2 r k)
    (⟨k.val / 128, by omega⟩ : Fin 4) rfl
    (ix2 r (⟨k.val % 128, Nat.mod_lt _ (by decide)⟩ : Fin 128)) rfl ?_).trans ?_
  · intro b hb
    match b with
    | ⟨0, _⟩ => rfl
    | ⟨1, _⟩ => exact absurd rfl hb
  · exact piece_apply x0 x1 _ r _

/-! ## The affine layer -/

/-- The layer's output at (r, n): the features of node r against column n of the transposed weights, plus bias n. -/
theorem layer_apply (x0 : (⟨S100000x128, .f32⟩ : BufTy).Contents (Elt Ideal)) (x1 : (⟨S2x1600000, .i32⟩ : BufTy).Contents (Elt Ideal))
    (x4 : (⟨S512x512, .f32⟩ : BufTy).Contents (Elt Ideal)) (x5 : (⟨S512, .f32⟩ : BufTy).Contents (Elt Ideal))
    (r : Fin 100000) (n : Fin 512) :
    val_main_v90 (F := Ideal) x0 x1 x4 x5 (ix2 r n)
      = Cert.RowSpec.outAt (fun l j => tbl x0 x1 l (ix2 r j)) (val_main_v86 (F := Ideal) x4) x5 n := by
  rw [val_main_v90_apply, val_main_v87_apply, val_main_v89_apply, val_main_v88_apply]
  have hl : ∀ k : Fin 512, lidx_main_v87 (ix2 r n) k = ix2 r k :=
    fun k => funext fun a => by match a with | ⟨0, _⟩ => rfl | ⟨1, _⟩ => rfl
  have hr : ∀ k : Fin 512, ridx_main_v87 (ix2 r n) k = ix2 k n :=
    fun k => funext fun a => by match a with | ⟨0, _⟩ => rfl | ⟨1, _⟩ => rfl
  have hb : idx_main_v88 (idx_main_v89 (ix2 r n)) = ix1 n :=
    funext fun a => by match a with | ⟨0, _⟩ => rfl
  simp only [hl, hr, hb, feat_apply, Ideal.addf_def]
  rfl

/-! ## The two row gathers -/

/-- "If negative add 100000" leaves a word that is not negative alone. -/
theorem wrap_id (w : BitVec 32) (h0 : 0 ≤ w.toInt) :
    Scalar.select (IntOp.cmpi .slt w (0#32)) (IntOp.addi w (100000#32)) w = w := by
  have hc : ¬ IntOp.cmpi .slt w (0#32) = 1#1 := fun h => by
    have h' := IntOp.cmpi_slt.1 h
    rw [show (0#32 : BitVec 32).toInt = 0 by decide] at h'
    omega
  rw [eq_zero_of_ne_one hc]
  exact select_zero _ _

/-- A row gather of the layer's output at a word in [0, 100000) through "if negative add 100000": the row at the word. -/
theorem rows_apply (y : (⟨S100000x512, .f32⟩ : BufTy).Contents (Elt Ideal)) (idx : (⟨S16384x1, .i32⟩ : BufTy).Contents (Elt Ideal))
    (w : BitVec 32) (p : Fin 16384) (n : Fin 512) (hw : idx (ix2 p (0 : Fin 1)) = w)
    (h0 : 0 ≤ w.toInt) (h1 : w.toInt < 100000) :
    Host.gather gather_S100000x512_S16384x1_S16384x512_1_0_n_n_0_1_1512 y idx (ix2 p n)
      = y (ix2 (⟨w.toInt.toNat, by omega⟩ : Fin 100000) n) := by
  refine (Cert.LibGatherRows.gather_rows_apply (N := 100000) (K := 512) (E := 16384) (w := 32) (by decide)
    Cert.ReferenceIdeal.Gen.gather_S100000x512_S16384x1_S16384x512_1_0_n_n_0_1_1512_wf y idx p n).trans ?_
  refine congrArg (fun q : Fin 100000 => y (ix2 q n)) (Fin.ext ?_)
  show min (idx (ix2 p (0 : Fin 1))).toInt.toNat (100000 - 1) = w.toInt.toNat
  rw [hw]
  exact Nat.min_eq_left (by omega)

/-- The rows the first index vector names. -/
theorem senders_apply (x0 : (⟨S100000x128, .f32⟩ : BufTy).Contents (Elt Ideal)) (x1 : (⟨S2x1600000, .i32⟩ : BufTy).Contents (Elt Ideal))
    (x2 : (⟨S16384, .i32⟩ : BufTy).Contents (Elt Ideal))
    (x4 : (⟨S512x512, .f32⟩ : BufTy).Contents (Elt Ideal)) (x5 : (⟨S512, .f32⟩ : BufTy).Contents (Elt Ideal))
    (p : Fin 16384) (n : Fin 512)
    (h0 : 0 ≤ (x2 (ix1 p)).toInt) (h1 : (x2 (ix1 p)).toInt < 100000) :
    val_main_v97 (F := Ideal) x0 x1 x2 x4 x5 (ix2 p n)
      = val_main_v90 (F := Ideal) x0 x1 x4 x5 (ix2 (⟨(x2 (ix1 p)).toInt.toNat, by omega⟩ : Fin 100000) n) := by
  have hw : val_main_v96 (F := Ideal) x2 (ix2 p (0 : Fin 1)) = x2 (ix1 p) := by
    rw [val_main_v96_apply, val_main_v95_apply, val_main_v92_apply, val_main_v94_apply, val_main_v91_apply,
      val_main_v93_apply, val_main_c_18_apply, val_main_c_19_apply]
    have hi : idx_main_v96 (ix2 p (0 : Fin 1)) = ix1 p := funext fun a => by match a with | ⟨0, _⟩ => rfl
    rw [hi]
    exact wrap_id _ h0
  exact rows_apply (val_main_v90 (F := Ideal) x0 x1 x4 x5) (val_main_v96 (F := Ideal) x2) _ p n hw h0 h1

/-- The rows the second index vector names. -/
theorem receivers_apply (x0 : (⟨S100000x128, .f32⟩ : BufTy).Contents (Elt Ideal)) (x1 : (⟨S2x1600000, .i32⟩ : BufTy).Contents (Elt Ideal))
    (x3 : (⟨S16384, .i32⟩ : BufTy).Contents (Elt Ideal))
    (x4 : (⟨S512x512, .f32⟩ : BufTy).Contents (Elt Ideal)) (x5 : (⟨S512, .f32⟩ : BufTy).Contents (Elt Ideal))
    (p : Fin 16384) (n : Fin 512)
    (h0 : 0 ≤ (x3 (ix1 p)).toInt) (h1 : (x3 (ix1 p)).toInt < 100000) :
    val_main_v104 (F := Ideal) x0 x1 x3 x4 x5 (ix2 p n)
      = val_main_v90 (F := Ideal) x0 x1 x4 x5 (ix2 (⟨(x3 (ix1 p)).toInt.toNat, by omega⟩ : Fin 100000) n) := by
  have hw : val_main_v103 (F := Ideal) x3 (ix2 p (0 : Fin 1)) = x3 (ix1 p) := by
    rw [val_main_v103_apply, val_main_v102_apply, val_main_v99_apply, val_main_v101_apply, val_main_v98_apply,
      val_main_v100_apply, val_main_c_20_apply, val_main_c_21_apply]
    have hi : idx_main_v103 (ix2 p (0 : Fin 1)) = ix1 p := funext fun a => by match a with | ⟨0, _⟩ => rfl
    rw [hi]
    exact wrap_id _ h0
  exact rows_apply (val_main_v90 (F := Ideal) x0 x1 x4 x5) (val_main_v103 (F := Ideal) x3) _ p n hw h0 h1

/-! ## The transposed weights -/

/-- The transposed weights at (k, n) are the weights at (n, k). -/
theorem weight_apply (x4 : (⟨S512x512, .f32⟩ : BufTy).Contents (Elt Ideal)) (k n : Fin 512) :
    val_main_v86 (F := Ideal) x4 (ix2 k n) = x4 (ix2 n k) := by
  rw [val_main_v86_apply]
  exact congrArg x4 (funext fun a => by match a with | ⟨0, _⟩ => rfl | ⟨1, _⟩ => rfl)

end Cert.RefRows

end
-- ==== Proof.Tables.lean ====
/-
  The node tables of the two programs are the same functions of the arguments.

  Both programs compute three further node tables from the embedding table (argument 0) and the edge list
  (argument 1) by the same operations in the same order: the in-degree of every node by a scatter-add of ones, its
  reciprocal square root (the degree taken at least one), the weight of an edge as the product of that quantity at
  its two end points, and then, three times over, "gather the rows of the previous table at the edges' sources, scale
  each by its edge's weight, scatter-add them at the edges' targets into a table of zeros". Nothing here opens a
  gather or a scatter: the two composed terms are compared as terms.

  The kernel program's contents at the entry of its region are a fold over seven stretches of host operations. Only
  the first stretch writes the three tables, so the six later ones are dropped; the first stretch read at a table's
  buffer is the composed term of its operations over the two arguments; and the reference's stage for that table,
  its definitions unfolded, is the same term: the same operations on the same shapes, with the same dimension
  records (equal field by field, their well-formedness being a proposition).
-/
import proofs.«426924_j9938554323124_3_alg».proof.Proof.Gen.KernelIdeal.Frame
import proofs.«426924_j9938554323124_3_alg».proof.Proof.Gen.ReferenceIdeal.Read
import Idealize.ShloMosaic.Lib.Pipeline.Frame
import Idealize.ShloMosaic.Lib.StableHlo.Run
import Idealize.ShloMosaic.PureOps.Ideal

set_option maxRecDepth 16384

noncomputable section

namespace Cert.Tables

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- The launch contents of core `c`, as a valuation. -/
abbrev L : Valuation τ sig (Elt Ideal) := fun b => m (c, b)

/-- The six later stretches of host operations, joined. -/
abbrev later : List (HloOp τ sig (Elt Ideal)) :=
  hostOps0_1 ++ (hostOps0_2 ++ (hostOps0_3 ++ (hostOps0_4 ++ (hostOps0_5 ++ (hostOps0_6 ++ [])))))

/-- The contents at the region's entry: the later stretches run on what the first stretch leaves. -/
theorem V0_split : V0 m c = StableHlo.after later (StableHlo.after hostOps0 (L m c)) := by
  show StableHlo.after (hostOps0 ++ later) (L m c) = _
  exact StableHlo.after_append _ _ _

/-- A buffer that none of the later stretches writes holds what the first stretch left there. -/
theorem V_of_later (r : Ref sig .tc)
    (h : ∀ op ∈ later, Proc.devRef (τ := τ) .tc r ∉ op.writes) :
    V m c r = StableHlo.after hostOps0 (L m c) (Proc.devRef .tc r) := by
  show V0 m c (Proc.devRef .tc r) = _
  rw [V0_split]
  exact StableHlo.after_of_forall_not_mem _ _ h

set_option maxHeartbeats 4000000 in
/-- None of the later stretches writes `main_v38`: each of their operations writes one buffer, and it is another one. -/
theorem later_main_v38 : ∀ op ∈ later, Proc.devRef (τ := τ) .tc main_v38 ∉ op.writes :=
  List.forall_iff_forall_mem.mp (by
    simp only [later, hostOps0_1, hostOps0_2, hostOps0_3, hostOps0_4, hostOps0_5, hostOps0_6, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

set_option maxHeartbeats 4000000 in
/-- None of the later stretches writes `main_v51`: each of their operations writes one buffer, and it is another one. -/
theorem later_main_v51 : ∀ op ∈ later, Proc.devRef (τ := τ) .tc main_v51 ∉ op.writes :=
  List.forall_iff_forall_mem.mp (by
    simp only [later, hostOps0_1, hostOps0_2, hostOps0_3, hostOps0_4, hostOps0_5, hostOps0_6, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

set_option maxHeartbeats 4000000 in
/-- None of the later stretches writes `main_v64`: each of their operations writes one buffer, and it is another one. -/
theorem later_main_v64 : ∀ op ∈ later, Proc.devRef (τ := τ) .tc main_v64 ∉ op.writes :=
  List.forall_iff_forall_mem.mp (by
    simp only [later, hostOps0_1, hostOps0_2, hostOps0_3, hostOps0_4, hostOps0_5, hostOps0_6, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

set_option maxHeartbeats 8000000 in
/-- The first table: the embedding rows gathered at the edges' sources, scaled by the edges' weights and scatter-added
    at the edges' targets. The kernel program's buffer holds the reference's stage. -/
theorem table1_eq :
    (V m c main_v38 : S100000x128.Idx → EReal)
      = Cert.ReferenceIdeal.Read.val_main_v43 (F := Ideal)
          (m ((c.tc : Thread nD τ).loc main_arg0)) (m ((c.tc : Thread nD τ).loc main_arg1)) := by
  refine (V_of_later m c main_v38 later_main_v38).trans ?_
  after_results_simp
  rfl

set_option maxHeartbeats 8000000 in
/-- The second table: the same step applied to the first table. -/
theorem table2_eq :
    (V m c main_v51 : S100000x128.Idx → EReal)
      = Cert.ReferenceIdeal.Read.val_main_v61 (F := Ideal)
          (m ((c.tc : Thread nD τ).loc main_arg0)) (m ((c.tc : Thread nD τ).loc main_arg1)) := by
  refine (V_of_later m c main_v51 later_main_v51).trans ?_
  after_results_simp
  rfl

set_option maxHeartbeats 8000000 in
/-- The third table: the same step applied to the second table. -/
theorem table3_eq :
    (V m c main_v64 : S100000x128.Idx → EReal)
      = Cert.ReferenceIdeal.Read.val_main_v79 (F := Ideal)
          (m ((c.tc : Thread nD τ).loc main_arg0)) (m ((c.tc : Thread nD τ).loc main_arg1)) := by
  refine (V_of_later m c main_v64 later_main_v64).trans ?_
  after_results_simp
  rfl

end Cert.Tables

end
-- ==== Proof.IndexDomain.lean ====
/-
  UNTRUSTED — THE INDEX VECTORS' DOMAIN, READ OUT OF THE PRECONDITION. The precondition is a conjunction of seven
  reductions by `and` over whole arrays, and the claim says the conjunction is 1. A conjunction of one-bit words is 1
  exactly when each is; a reduction by `and` into a single result that is 1 met a 1 at every element. The last four
  reductions are over the two 16384-word index vectors: at each element p, the signed compare "word ≥ 0" and the signed
  compare "word < 100000", each against a scalar constant broadcast along the vector (so read at p it is the constant).
  Hence every word of either vector, read signed, lies in [0, 100000). The three leading reductions (the float inputs'
  finiteness) are split off and not used.
-/
import proofs.«426924_j9938554323124_3_alg».proof.Pre_finite_inputs
import Idealize.ShloMosaic.Lib.ReduceAll
import Idealize.ShloMosaic.Lib.ValueIdx

noncomputable section

namespace Cert.IndexDomain

open Idealize.ShloMosaic Idealize.ShloMosaic.ValueIdx
open Cert.Pre_finite_inputs

/-- The scalar shape has one index. -/
instance : Subsingleton S_.Idx := ⟨fun a b => funext fun d => d.elim0⟩

/-- The two constants the words are compared with, read signed. -/
theorem toInt_lo : (0#32 : BitVec 32).toInt = 0 := by decide
theorem toInt_hi : (100000#32 : BitVec 32).toInt = 100000 := by decide

/-- A word that passes both signed compares lies in [0, 100000) signed. -/
theorem word_range (w : BitVec 32) (h0 : IntOp.cmpi .sge w (0#32) = 1#1) (h1 : IntOp.cmpi .slt w (100000#32) = 1#1) :
    0 ≤ w.toInt ∧ w.toInt < 100000 := by
  have a := IntOp.cmpi_sge.1 h0
  have b := IntOp.cmpi_slt.1 h1
  rw [toInt_lo] at a
  rw [toInt_hi] at b
  exact ⟨a, b⟩

/-- THE PRECONDITION DECODED at one index of the two vectors: both words in [0, 100000) signed. -/
theorem both_range [Facts]
    (a0 : FVec Ideal S100000x128 .f32) (a1 : IVec S2x1600000 32)
    (a2 a3 : IVec S16384 32) (a4 : FVec Ideal S512x512 .f32)
    (a5 : FVec Ideal S512 .f32)
    (h : fn (F := Ideal) a0 a1 a2 a3 a4 a5 = fun _ => 1#1) (i : S16384.Idx) :
    (0 ≤ (a2 i).toInt ∧ (a2 i).toInt < 100000) ∧ (0 ≤ (a3 i).toInt ∧ (a3 i).toInt < 100000) := by
  have e := congrFun h ix0
  dsimp only [fn, fn_part1] at e
  simp only [Idealize.ShloMosaic.andi, IntOp.andi_eq_one] at e
  obtain ⟨⟨⟨⟨-, h20⟩, h21⟩, h30⟩, h31⟩ := e
  have k20 : IntOp.cmpi .sge (a2 i) (0#32) = 1#1 := Host.reduce_andi_all _ _ _ _ _ h20 i
  have k21 : IntOp.cmpi .slt (a2 i) (100000#32) = 1#1 := Host.reduce_andi_all _ _ _ _ _ h21 i
  have k30 : IntOp.cmpi .sge (a3 i) (0#32) = 1#1 := Host.reduce_andi_all _ _ _ _ _ h30 i
  have k31 : IntOp.cmpi .slt (a3 i) (100000#32) = 1#1 := Host.reduce_andi_all _ _ _ _ _ h31 i
  exact ⟨word_range _ k20 k21, word_range _ k30 k31⟩

/-- Every word of the first index vector, read signed, is in [0, 100000). -/
theorem senders_range [Cert.Pre_finite_inputs.Facts]
    (a0 : FVec Ideal Cert.Pre_finite_inputs.S100000x128 .f32) (a1 : IVec Cert.Pre_finite_inputs.S2x1600000 32)
    (a2 a3 : IVec Cert.Pre_finite_inputs.S16384 32) (a4 : FVec Ideal Cert.Pre_finite_inputs.S512x512 .f32)
    (a5 : FVec Ideal Cert.Pre_finite_inputs.S512 .f32)
    (h : Cert.Pre_finite_inputs.fn (F := Ideal) a0 a1 a2 a3 a4 a5 = fun _ => 1#1) (p : Fin 16384) :
    0 ≤ (a2 (Idealize.ShloMosaic.ValueIdx.ix1 p)).toInt ∧ (a2 (Idealize.ShloMosaic.ValueIdx.ix1 p)).toInt < 100000 :=
  (both_range a0 a1 a2 a3 a4 a5 h (ix1 p)).1

/-- Every word of the second index vector, read signed, is in [0, 100000). -/
theorem receivers_range [Cert.Pre_finite_inputs.Facts]
    (a0 : FVec Ideal Cert.Pre_finite_inputs.S100000x128 .f32) (a1 : IVec Cert.Pre_finite_inputs.S2x1600000 32)
    (a2 a3 : IVec Cert.Pre_finite_inputs.S16384 32) (a4 : FVec Ideal Cert.Pre_finite_inputs.S512x512 .f32)
    (a5 : FVec Ideal Cert.Pre_finite_inputs.S512 .f32)
    (h : Cert.Pre_finite_inputs.fn (F := Ideal) a0 a1 a2 a3 a4 a5 = fun _ => 1#1) (p : Fin 16384) :
    0 ≤ (a3 (Idealize.ShloMosaic.ValueIdx.ix1 p)).toInt ∧ (a3 (Idealize.ShloMosaic.ValueIdx.ix1 p)).toInt < 100000 :=
  (both_range a0 a1 a2 a3 a4 a5 h (ix1 p)).2

end Cert.IndexDomain

end
-- ==== Proof.Bridge.lean ====
/-
  The two programs meet. Row P of the kernel's output array is the affine layer of the node whose rows are rows P of
  the four gathered tables; gathering (with indices in range) reads row w(P) of each node table, w(P) the index word
  of P; the node tables of the two programs are the same functions of the arguments; and the reference's affine
  layer at node w(P) is the same expression of that node's four rows, the transposed weights and the bias. The
  first 16384 index words are the senders, the others the receivers, and the reference gathers exactly those rows.
-/
import proofs.«426924_j9938554323124_3_alg».proof.Proof.KernelTail
import proofs.«426924_j9938554323124_3_alg».proof.Proof.KernelPrefix
import proofs.«426924_j9938554323124_3_alg».proof.Proof.RefRows
import proofs.«426924_j9938554323124_3_alg».proof.Proof.Tables
import proofs.«426924_j9938554323124_3_alg».proof.Proof.IndexDomain
import proofs.«426924_j9938554323124_3_alg».proof.Proof.Gen.Pre_finite_inputs

set_option maxRecDepth 16384

noncomputable section

namespace Cert.Bridge

open Idealize.ShloMosaic Idealize.ShloMosaic.ValueIdx Idealize.SL.Sem Cert.KernelIdeal Cert.KernelIdeal.Gen
open Cert.KernelArray

variable (m : (ℓ : Loc nD τ sig) → Buf (Elt Ideal) ℓ) (c : Dev nD)

/-- The argument arrays as launched: the embedding table, the edges, the senders, the receivers, the weights, the bias. -/
abbrev a0 : S100000x128.Idx → EReal := m ((c.tc : Thread nD τ).loc main_arg0)
abbrev a1 : S2x1600000.Idx → BitVec 32 := m ((c.tc : Thread nD τ).loc main_arg1)
abbrev a2 : S16384.Idx → BitVec 32 := m ((c.tc : Thread nD τ).loc main_arg2)
abbrev a3 : S16384.Idx → BitVec 32 := m ((c.tc : Thread nD τ).loc main_arg3)
abbrev a4 : S512x512.Idx → EReal := m ((c.tc : Thread nD τ).loc main_arg4)
abbrev a5 : S512.Idx → EReal := m ((c.tc : Thread nD τ).loc main_arg5)

/-- The node whose number is the word w. -/
abbrev node (w : BitVec 32) (h0 : 0 ≤ w.toInt) (h1 : w.toInt < 100000) : Fin 100000 := ⟨w.toInt.toNat, by omega⟩

section Rows
variable (P : Fin 32768) (j : Fin 128)
  (h0 : 0 ≤ (Cert.KernelPrefix.idxWord m c P).toInt) (h1 : (Cert.KernelPrefix.idxWord m c P).toInt < 100000)

/-- Row P of the first gathered table is row w(P) of the embedding table. -/
theorem row0 : (V m c main_v67 : S32768x128.Idx → EReal) (ix2 P j)
    = Cert.RefRows.tbl (a0 m c) (a1 m c) 0 (ix2 (node _ h0 h1) j) :=
  (Cert.KernelPrefix.gathered_apply m c 0 P j h0 h1).trans (congrFun (V_main_arg0 m c) _)

/-- Row P of the second gathered table is row w(P) of the first propagated table, which both programs compute alike. -/
theorem row1 : (V m c main_v68 : S32768x128.Idx → EReal) (ix2 P j)
    = Cert.RefRows.tbl (a0 m c) (a1 m c) 1 (ix2 (node _ h0 h1) j) :=
  (Cert.KernelPrefix.gathered_apply m c 1 P j h0 h1).trans (congrFun (Cert.Tables.table1_eq m c) _)

theorem row2 : (V m c main_v69 : S32768x128.Idx → EReal) (ix2 P j)
    = Cert.RefRows.tbl (a0 m c) (a1 m c) 2 (ix2 (node _ h0 h1) j) :=
  (Cert.KernelPrefix.gathered_apply m c 2 P j h0 h1).trans (congrFun (Cert.Tables.table2_eq m c) _)

theorem row3 : (V m c main_v70 : S32768x128.Idx → EReal) (ix2 P j)
    = Cert.RefRows.tbl (a0 m c) (a1 m c) 3 (ix2 (node _ h0 h1) j) :=
  (Cert.KernelPrefix.gathered_apply m c 3 P j h0 h1).trans (congrFun (Cert.Tables.table3_eq m c) _)

end Rows

/-- The weights the kernel is launched with are the reference's transposed weights. -/
theorem weight_eq (k n : Fin 512) : (V m c main_v72 : S512x512.Idx → EReal) (ix2 k n)
    = Cert.ReferenceIdeal.Read.val_main_v86 (F := Ideal) (a4 m c) (ix2 k n) :=
  (Cert.KernelPrefix.weight_apply m c k n).trans
    ((congrFun (V_main_arg4 m c) (ix2 n k)).trans (Cert.RefRows.weight_apply (a4 m c) k n).symm)

/-- The four rows of P, as a family. -/
theorem rows_eq (P : Fin 32768)
    (h0 : 0 ≤ (Cert.KernelPrefix.idxWord m c P).toInt) (h1 : (Cert.KernelPrefix.idxWord m c P).toInt < 100000) :
    (fun (l : Fin 4) (j : Fin 128) => rows4 (V m c main_v67) (V m c main_v68) (V m c main_v69) (V m c main_v70) l (ix2 P j))
      = fun l j => Cert.RefRows.tbl (a0 m c) (a1 m c) l (ix2 (node _ h0 h1) j) := by
  funext l j
  fin_cases l
  · exact row0 m c P j h0 h1
  · exact row1 m c P j h0 h1
  · exact row2 m c P j h0 h1
  · exact row3 m c P j h0 h1

/-- Row P of the kernel's output array, when P's index word w is a node number: the reference's affine layer at
    node w. -/
theorem array_row (P : Fin 32768) (n : Fin 512) (w : BitVec 32) (hw : Cert.KernelPrefix.idxWord m c P = w)
    (h0 : 0 ≤ w.toInt) (h1 : w.toInt < 100000) :
    arrayG m c (ix2 P n)
      = Cert.ReferenceIdeal.Read.val_main_v90 (F := Ideal) (a0 m c) (a1 m c) (a4 m c) (a5 m c) (ix2 (node w h0 h1) n) := by
  subst hw
  rw [Cert.RefRows.layer_apply]
  show Cert.RowSpec.outAt
      (fun l j => rows4 (V m c main_v67) (V m c main_v68) (V m c main_v69) (V m c main_v70) l (ix2 P j))
      (V m c main_v72) (V m c main_arg5) n = _
  unfold Cert.RowSpec.outAt
  rw [rows_eq m c P h0 h1, show (V m c main_arg5 : S512.Idx → EReal) (ix1 n) = a5 m c (ix1 n) from congrFun (V_main_arg5 m c) _]
  refine congrArg (fun s : EReal => s + a5 m c (ix1 n)) ?_
  refine Finset.sum_congr rfl fun k _ => ?_
  rw [weight_eq m c k n]

/-- The precondition, at the launch's argument arrays. -/
abbrev Pre : Prop :=
  Cert.Pre_finite_inputs.fn (F := Ideal) (a0 m c) (a1 m c) (a2 m c) (a3 m c) (a4 m c) (a5 m c) = fun _ => 1#1

/-- The first result is the reference's rows gathered at the senders. -/
theorem senders_eq (hpre : Pre m c) :
    res0 m c = Cert.ReferenceIdeal.Read.val_main_v97 (F := Ideal) (a0 m c) (a1 m c) (a2 m c) (a4 m c) (a5 m c) := by
  funext i
  obtain ⟨p, n, rfl⟩ : ∃ (p : Fin 16384) (n : Fin 512), i = ix2 p n := ⟨i 0, i 1, eq_ix2 i⟩
  obtain ⟨h0, h1⟩ := Cert.IndexDomain.senders_range (a0 m c) (a1 m c) (a2 m c) (a3 m c) (a4 m c) (a5 m c) hpre p
  rw [Cert.RefRows.senders_apply (a0 m c) (a1 m c) (a2 m c) (a4 m c) (a5 m c) p n h0 h1]
  have hP : p.val < 32768 := by have := p.isLt; omega
  exact array_row m c ⟨p.val, hP⟩ n (a2 m c (ix1 p))
    ((Cert.KernelPrefix.idxWord_senders m c ⟨p.val, hP⟩ p.isLt).trans (congrFun (V_main_arg2 m c) _)) h0 h1

/-- The second result is the reference's rows gathered at the receivers. -/
theorem receivers_eq (hpre : Pre m c) :
    res1 m c = Cert.ReferenceIdeal.Read.val_main_v104 (F := Ideal) (a0 m c) (a1 m c) (a3 m c) (a4 m c) (a5 m c) := by
  funext i
  obtain ⟨p, n, rfl⟩ : ∃ (p : Fin 16384) (n : Fin 512), i = ix2 p n := ⟨i 0, i 1, eq_ix2 i⟩
  obtain ⟨h0, h1⟩ := Cert.IndexDomain.receivers_range (a0 m c) (a1 m c) (a2 m c) (a3 m c) (a4 m c) (a5 m c) hpre p
  rw [Cert.RefRows.receivers_apply (a0 m c) (a1 m c) (a3 m c) (a4 m c) (a5 m c) p n h0 h1]
  have hP : 16384 + p.val < 32768 := by have := p.isLt; omega
  have hix : (ix1 (⟨16384 + p.val - 16384, by have := p.isLt; omega⟩ : Fin 16384) : S16384.Idx) = ix1 p := by
    funext a
    match a with
    | ⟨0, _⟩ => exact Fin.ext (by show 16384 + p.val - 16384 = p.val; omega)
  exact array_row m c ⟨16384 + p.val, hP⟩ n (a3 m c (ix1 p))
    (((Cert.KernelPrefix.idxWord_receivers m c ⟨16384 + p.val, hP⟩ (by show 16384 ≤ 16384 + p.val; omega)).trans
      (congrFun (V_main_arg3 m c) _)).trans (congrArg (a3 m c) hix)) h0 h1

end Cert.Bridge

end
-- ==== Proof.lean ====
/-
  A graph network's read-out, two ways. Both programs build three further node tables from the embedding table by
  the same message passing over the edges. The reference divides every row of the four tables by its length (at
  least 1e-12), lays the four unit rows of a node side by side, applies one affine layer to all 100000 nodes, and
  then reads the rows of the senders and of the receivers. The kernel program reads the senders' and receivers'
  rows of the four tables first and normalises, concatenates and applies the layer only to those 32768 rows, in
  sixteen blocks. Reading a row commutes with every row-wise step, so with sender and receiver indices that are
  node numbers (0 ≤ index < 100000, the statement's added domain) the two programs give the same two results over
  the extended reals. No algebraic law beyond reindexing is used, so the inputs' finiteness is not needed.
  The frames of the two kernel programs are the generated ones; the reference's frame is its generated run.
-/
import proofs.«426924_j9938554323124_3_alg».proof.Defs
import proofs.«426924_j9938554323124_3_alg».proof.Proof.Gen.Kernel
import proofs.«426924_j9938554323124_3_alg».proof.Proof.Gen.Kernel.Skeleton
import proofs.«426924_j9938554323124_3_alg».proof.Proof.Gen.Kernel.Launch
import proofs.«426924_j9938554323124_3_alg».proof.Proof.Gen.Kernel.Points
import proofs.«426924_j9938554323124_3_alg».proof.Proof.Gen.Kernel.Frame
import proofs.«426924_j9938554323124_3_alg».proof.Proof.Gen.KernelIdeal
import proofs.«426924_j9938554323124_3_alg».proof.Proof.Gen.KernelIdeal.Skeleton
import proofs.«426924_j9938554323124_3_alg».proof.Proof.Gen.KernelIdeal.Launch
import proofs.«426924_j9938554323124_3_alg».proof.Proof.Gen.KernelIdeal.Points
import proofs.«426924_j9938554323124_3_alg».proof.Proof.Gen.KernelIdeal.Frame
import proofs.«426924_j9938554323124_3_alg».proof.Proof.Gen.ReferenceIdeal
import proofs.«426924_j9938554323124_3_alg».proof.Proof.Gen.Pre_finite_inputs
import proofs.«426924_j9938554323124_3_alg».proof.Proof.Gen.ReferenceIdeal.Run
import proofs.«426924_j9938554323124_3_alg».proof.Proof.Gen.ReferenceIdeal.Read
import proofs.«426924_j9938554323124_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel program ends with the two halves of its output array, the reference with its table's rows at the
    senders and at the receivers; from memories that agree on the arguments, under the index domain, these are the
    same arrays. -/
theorem algebraic : Cert.algebraic_KernelIdeal_ReferenceIdeal := by
  intro m ρ m' ρ' hpre hagree
  refine ⟨fun c => Cert.KernelArray.res0 m c, fun c => Cert.KernelArray.res1 m c, Cert.KernelArray.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v97_eq, (hagree c).1, (hagree c).2.1, (hagree c).2.2.1, (hagree c).2.2.2.2.1,
      (hagree c).2.2.2.2.2]
    exact (Cert.Bridge.senders_eq m c (hpre c)).symm
  · rw [Cert.ReferenceIdeal.Read.val_main_v104_eq, (hagree c).1, (hagree c).2.1, (hagree c).2.2.2.1, (hagree c).2.2.2.2.1,
      (hagree c).2.2.2.2.2]
    exact (Cert.Bridge.receivers_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
